-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S2x64x1024x1024 : Shape := ⟨4, ![2, 64, 1024, 1024]⟩
abbrev S_ : Shape := ⟨0, ![]⟩

class Facts : Prop where
  bcast_S_S2x64x1024x1024 : S_.BroadcastsInDim S2x64x1024x1024 (![] : Fin 0 → Fin S2x64x1024x1024.rank)
  reducesTo_S2x64x1024x1024_S_d0_1_2_3 : S2x64x1024x1024.ReducesTo [0, 1, 2, 3] S_
  h_S_ : 0 < S_.numel

variable [Facts]

def fn {F : FTy → Type} [FloatOps F] (main_arg0 : IVec S2x1024x1024 32) (main_arg1 : FVec F S2x64x1024x1024 .f32) : IVec S_ 1 :=
  let main_v0 : FVec F S2x64x1024x1024 .f32 := Host.absf main_arg1
  let main_cst : FVec F S_ .f32 := constant S_ .f32 0x7F800000#32
  let main_v1 : FVec F S2x64x1024x1024 .f32 := broadcastInDim S2x64x1024x1024 ![] bcast_S_S2x64x1024x1024 main_cst
  let main_v2 : IVec S2x64x1024x1024 1 := cmpf .olt main_v0 main_v1
  let main_c : IVec S_ 1 := constantI S_ 1 1#1
  let main_v3 : IVec S_ 1 := (fun x v => Host.reduce IntOp.andi x v reducesTo_S2x64x1024x1024_S_d0_1_2_3 h_S_) main_v2 main_c
  main_v3
-- ==== Kernel.lean ====
abbrev S2x1024x1024 : Shape := ⟨3, ![2, 1024, 1024]⟩
abbrev S2x64x1024x1024 : Shape := ⟨4, ![2, 64, 1024, 1024]⟩
abbrev S1x64x1024x1024 : Shape := ⟨4, ![1, 64, 1024, 1024]⟩
abbrev S64x1024x1024 : Shape := ⟨3, ![64, 1024, 1024]⟩
abbrev S64x1048576 : Shape := ⟨2, ![64, 1048576]⟩
abbrev S1x1024x1024 : Shape := ⟨3, ![1, 1024, 1024]⟩
abbrev S1024x1024 : Shape := ⟨2, ![1024, 1024]⟩
abbrev S1048576x1 : Shape := ⟨2, ![1048576, 1]⟩
abbrev S2x129x2048 : Shape := ⟨3, ![2, 129, 2048]⟩
abbrev S64x4096 : Shape := ⟨2, ![64, 4096]⟩
abbrev S4096x1 : Shape := ⟨2, ![4096, 1]⟩
abbrev S1x129x2048 : Shape := ⟨3, ![1, 129, 2048]⟩
abbrev S129x2048 : Shape := ⟨2, ![129, 2048]⟩
abbrev S1x2048 : Shape := ⟨2, ![1, 2048]⟩
abbrev S4096x2048 : Shape := ⟨2, ![4096, 2048]⟩
abbrev S1x4096 : Shape := ⟨2, ![1, 4096]⟩
abbrev S129x4096 : Shape := ⟨2, ![129, 4096]⟩
abbrev S_ : Shape := ⟨0, ![]⟩
abbrev S64x2048 : Shape := ⟨2, ![64, 2048]⟩
abbrev S2048 : Shape := ⟨1, ![2048]⟩

abbrev nBuf : Space → Nat
  | .hbm => 45
  | .vmem => 6
  | .smem => 0
  | _ => 0

abbrev bufTy : (tb : Table) → Fin (tcTables nBuf tb) → BufTy
  | .hbm, ⟨0, _⟩ => ⟨S2x1024x1024, .i32⟩
  | .hbm, ⟨1, _⟩ => ⟨S2x64x1024x1024, .f32⟩
  | .hbm, ⟨2, _⟩ => ⟨S1x64x1024x1024, .f32⟩
  | .hbm, ⟨3, _⟩ => ⟨S64x1024x1024, .f32⟩
  | .hbm, ⟨4, _⟩ => ⟨S64x1048576, .f32⟩
  | .hbm, ⟨5, _⟩ => ⟨S1x1024x1024, .i32⟩
  | .hbm, ⟨6, _⟩ => ⟨S1024x1024, .i32⟩
  | .hbm, ⟨7, _⟩ => ⟨S1048576x1, .i32⟩
  | .hbm, ⟨8, _⟩ => ⟨S2x129x2048, .f32⟩
  | .hbm, ⟨9, _⟩ => ⟨S_, .f32⟩
  | .hbm, ⟨10, _⟩ => ⟨S129x2048, .f32⟩
  | .hbm, ⟨11, _⟩ => ⟨S64x2048, .f32⟩
  | .hbm, ⟨12, _⟩ => ⟨S64x2048, .f32⟩
  | .hbm, ⟨13, _⟩ => ⟨S1x2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S64x2048, .f32⟩
  | .hbm, ⟨19, _⟩ => ⟨S1x2048, .f32⟩
  | .hbm, ⟨20, _⟩ => ⟨S64x2048, .f32⟩
  | .hbm, ⟨21, _⟩ => ⟨S64x2048, .f32⟩
  | .hbm, ⟨22, _⟩ => ⟨S64x2048, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .i1⟩
  | .hbm, ⟨32, _⟩ => ⟨S_, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S2048, .i1⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S64x4096, .f32⟩
  | .local _ .vmem, ⟨1, _⟩ => ⟨S64x4096, .f32⟩
  | .local _ .vmem, ⟨2, _⟩ => ⟨S4096x1, .i32⟩
  | .local _ .vmem, ⟨3, _⟩ => ⟨S4096x1, .i32⟩
  | .local _ .vmem, ⟨4, _⟩ => ⟨S1x129x2048, .f32⟩
  | .local _ .vmem, ⟨5, _⟩ => ⟨S1x129x2048, .f32⟩
  | _, _ => ⟨S2x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x129x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x64x1024x1024_S1x64x1024x1024_0_0_0_0 : S2x64x1024x1024.Slices ![0, 0, 0, 0] S1x64x1024x1024
  shapeCasts_S1x64x1024x1024_S64x1024x1024 : S1x64x1024x1024.ShapeCasts S64x1024x1024
  shapeCasts_S64x1024x1024_S64x1048576 : S64x1024x1024.ShapeCasts S64x1048576
  slices_S2x1024x1024_S1x1024x1024_0_0_0 : S2x1024x1024.Slices ![0, 0, 0] S1x1024x1024
  shapeCasts_S1x1024x1024_S1024x1024 : S1x1024x1024.ShapeCasts S1024x1024
  shapeCasts_S1024x1024_S1048576x1 : S1024x1024.ShapeCasts S1048576x1
  inb_S1x129x2048_S1x129x2048_0_0_0 : ∀ a, (![0, 0, 0] : Fin 3 → Nat) a + S1x129x2048.size a ≤ S1x129x2048.size a
  h_S1x129x2048 : 0 < S1x129x2048.numel
  shapeCasts_S1x129x2048_S129x2048 : S1x129x2048.ShapeCasts S129x2048
  shapeCasts_S129x2048_S1x129x2048 : S129x2048.ShapeCasts S1x129x2048
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x2048_d1_w32 : S1x2048.Iotas .tc 32 [1]
  broadcasts_S1x2048_S4096x2048 : S1x2048.Broadcasts S4096x2048
  broadcasts_S4096x1_S4096x2048 : S4096x1.Broadcasts S4096x2048
  natLt_1_32 : 1 < 32
  bitsLt_bf16_f32 : FTy.bits .bf16 < FTy.bits .f32
  concatenates_S64x4096_S64x4096_S1x4096_S129x4096_d0 : Shape.Concatenates [S64x4096, S64x4096, S1x4096] S129x4096 0
  reducesTo_S2x129x2048_S129x2048_d0 : S2x129x2048.ReducesTo [0] S129x2048
  h_S_ : 0 < S_.numel
  slices_S129x2048_S64x2048_0_0 : S129x2048.Slices ![0, 0] S64x2048
  slices_S129x2048_S64x2048_64_0 : S129x2048.Slices ![64, 0] S64x2048
  slices_S129x2048_S1x2048_128_0 : S129x2048.Slices ![128, 0] S1x2048
  shapeCasts_S1x2048_S2048 : S1x2048.ShapeCasts S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  reducesTo_S64x2048_S2048_d0 : S64x2048.ReducesTo [0] S2048
  reducesTo_S2048_S_d0 : S2048.ReducesTo [0] S_
  dot_S129x4096_S4096x2048_S129x2048_1_0_0_1_n_n_wf : DotDims.WF S129x4096 S4096x2048 S129x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x1048576.size a
  hwx0_0 : ∀ i : grid0.Coords, EltTy.bits .f32 = 32 ∨ (Rect.block (s := S64x1048576) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S1048576x1.size a
  hwx0_1 : ∀ i : grid0.Coords, EltTy.bits .i32 = 32 ∨ (Rect.block (s := S1048576x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x129x2048.size a ≤ S2x129x2048.size a
  hwx0_2 : ∀ i : grid0.Coords, EltTy.bits .f32 = 32 ∨ (Rect.block (s := S2x129x2048) S1x129x2048.size (cc0_transform_2 i) (hinb0_2 i)).WholeWords (EltTy.packing .f32)

variable [Facts₀]

def dot_S129x4096_S4096x2048_S129x2048_1_0_0_1_n_n : DotDims S129x4096 S4096x2048 S129x2048 where
  lhsContracting := [1]
  rhsContracting := [0]
  lhsNonContracting := [0]
  rhsNonContracting := [1]
  lhsBatch := []
  rhsBatch := []
  wf := dot_S129x4096_S4096x2048_S129x2048_1_0_0_1_n_n_wf

abbrev win0_0 : Pipeline.Window sig grid0 :=
  Pipeline.Window.ofSpec (Memref.whole main_v2) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x129x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S2x64x1024x1024 : Shape := ⟨4, ![2, 64, 1024, 1024]⟩
abbrev S1x1024x1024 : Shape := ⟨3, ![1, 1024, 1024]⟩
abbrev S1024x1024 : Shape := ⟨2, ![1024, 1024]⟩
abbrev S1048576 : Shape := ⟨1, ![1048576]⟩
abbrev S1x64x1024x1024 : Shape := ⟨4, ![1, 64, 1024, 1024]⟩
abbrev S64x1024x1024 : Shape := ⟨3, ![64, 1024, 1024]⟩
abbrev S64x1048576 : Shape := ⟨2, ![64, 1048576]⟩
abbrev S1048576x64 : Shape := ⟨2, ![1048576, 64]⟩
abbrev S_ : Shape := ⟨0, ![]⟩
abbrev S2048x64 : Shape := ⟨2, ![2048, 64]⟩
abbrev S1048576x1 : Shape := ⟨2, ![1048576, 1]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2x1024x1024, .i32⟩
  | .hbm, ⟨1, _⟩ => ⟨S2x64x1024x1024, .f32⟩
  | .hbm, ⟨2, _⟩ => ⟨S1x1024x1024, .i32⟩
  | .hbm, ⟨3, _⟩ => ⟨S1024x1024, .i32⟩
  | .hbm, ⟨4, _⟩ => ⟨S1048576, .i32⟩
  | .hbm, ⟨5, _⟩ => ⟨S1x64x1024x1024, .f32⟩
  | .hbm, ⟨6, _⟩ => ⟨S64x1024x1024, .f32⟩
  | .hbm, ⟨7, _⟩ => ⟨S64x1048576, .f32⟩
  | .hbm, ⟨8, _⟩ => ⟨S1048576x64, .f32⟩
  | .hbm, ⟨9, _⟩ => ⟨S_, .f32⟩
  | .hbm, ⟨10, _⟩ => ⟨S2048x64, .f32⟩
  | .hbm, ⟨11, _⟩ => ⟨S1048576x1, .i32⟩
  | .hbm, ⟨12, _⟩ => ⟨S2048x64, .f32⟩
  | .hbm, ⟨13, _⟩ => ⟨S1048576x64, .f32⟩
  | .hbm, ⟨14, _⟩ => ⟨S_, .f32⟩
  | .hbm, ⟨15, _⟩ => ⟨S2048x64, .f32⟩
  | .hbm, ⟨16, _⟩ => ⟨S1048576x1, .i32⟩
  | .hbm, ⟨17, _⟩ => ⟨S2048x64, .f32⟩
  | .hbm, ⟨18, _⟩ => ⟨S_, .f32⟩
  | .hbm, ⟨19, _⟩ => ⟨S1048576, .f32⟩
  | .hbm, ⟨20, _⟩ => ⟨S_, .f32⟩
  | .hbm, ⟨21, _⟩ => ⟨S2048, .f32⟩
  | .hbm, ⟨22, _⟩ => ⟨S1048576x1, .i32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x1, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .i1⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048, .f32⟩
  | .hbm, ⟨52, _⟩ => ⟨S2048, .i1⟩
  | .hbm, ⟨53, _⟩ => ⟨S2048, .i32⟩
  | .hbm, ⟨54, _⟩ => ⟨S_, .i32⟩
  | .hbm, ⟨55, _⟩ => ⟨S_, .i32⟩
  | .hbm, ⟨56, _⟩ => ⟨S_, .f32⟩
  | .hbm, ⟨57, _⟩ => ⟨S_, .f32⟩
  | _, _ => ⟨S2x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  slices_S2x1024x1024_S1x1024x1024_0_0_0 : S2x1024x1024.Slices ![0, 0, 0] S1x1024x1024
  shapeCasts_S1x1024x1024_S1024x1024 : S1x1024x1024.ShapeCasts S1024x1024
  shapeCasts_S1024x1024_S1048576 : S1024x1024.ShapeCasts S1048576
  slices_S2x64x1024x1024_S1x64x1024x1024_0_0_0_0 : S2x64x1024x1024.Slices ![0, 0, 0, 0] S1x64x1024x1024
  shapeCasts_S1x64x1024x1024_S64x1024x1024 : S1x64x1024x1024.ShapeCasts S64x1024x1024
  shapeCasts_S64x1024x1024_S64x1048576 : S64x1024x1024.ShapeCasts S64x1048576
  transposes_S64x1048576_S1048576x64_1_0 : S64x1048576.Transposes [1, 0] S1048576x64
  bcast_S_S2048x64 : S_.BroadcastsInDim S2048x64 (![] : Fin 0 → Fin S2048x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  reducesTo_S2048x64_S2048_d1 : S2048x64.ReducesTo [1] S2048
  h_S_ : 0 < S_.numel
  reducesTo_S2048_S_d0 : S2048.ReducesTo [0] S_
  natLt_1_32 : 1 < 32
  scatter_S2048x64_S1048576x1_S1048576x64_1_0_0_1_wf : ScatterDims.WF S2048x64 S1048576x1 S1048576x64 [1] [0] [0] 1
  scatter_S2048_S1048576x1_S1048576_n_0_0_1_wf : ScatterDims.WF S2048 S1048576x1 S1048576 [] [0] [0] 1

variable [Facts₀]

def scatter_S2048x64_S1048576x1_S1048576x64_1_0_0_1 : ScatterDims S2048x64 S1048576x1 S1048576x64 where
  updateWindowDims := [1]
  insertedWindowDims := [0]
  scatterDimsToOperandDims := [0]
  indexVectorDim := 1
  wf := scatter_S2048x64_S1048576x1_S1048576x64_1_0_0_1_wf
def scatter_S2048_S1048576x1_S1048576_n_0_0_1 : ScatterDims S2048 S1048576x1 S1048576 where
  updateWindowDims := []
  insertedWindowDims := [0]
  scatterDimsToOperandDims := [0]
  indexVectorDim := 1
  wf := scatter_S2048_S1048576x1_S1048576_n_0_0_1_wf

class Facts : Prop extends Facts₀ where

variable [Facts]
-- ==== Proof.SegSpec.lean ====
/-
  What both programs compute, as one function of two arrays.

  `x` holds 64 channels of 1,048,576 pixels, `id` one 32-bit word per pixel. Pixel `p` belongs to segment `s`
  (one of 2,048) when its word, read as a signed integer, is `s`; a word outside `0 … 2047` puts the pixel in no
  segment. Per segment and channel: the number of pixels `segCnt`, the sum `segSum` and the sum of squares `segSq`
  of the channel over the segment's pixels. From these three statistics the loss: per segment the within-segment
  sum of squared deviations `Σ_c (sq − sum² / n)` with `n = max(count, 1)`, divided by `64 · n`; segments of fewer
  than two pixels count zero; the total is divided by the number of segments that have a pixel.
  Sums on the extended reals are commutative and associative whatever their terms, so the statistics do not
  depend on the order in which pixels are met; nothing here needs a finite input.
-/
import Idealize.ShloMosaic.PureOps.Ideal
import Idealize.ShloMosaic.PureOps.Ideal.Laws
import Idealize.ShloMosaic.Lib.ValueIdx

noncomputable section

namespace SegVariance

open Idealize.ShloMosaic Idealize.ShloMosaic.ValueIdx

/-- Channels by pixels. -/
abbrev SX : Shape := ⟨2, ![64, 1048576]⟩
/-- One word per pixel. -/
abbrev SI : Shape := ⟨1, ![1048576]⟩

/-- The float words the two programs share, read at the extended reals. -/
abbrev zeroW : EReal := Ideal.ofBits .f32 0x00000000#32
abbrev oneW : EReal := Ideal.ofBits .f32 0x3F800000#32
abbrev twoW : EReal := Ideal.ofBits .f32 0x40000000#32
abbrev chanW : EReal := Ideal.ofBits .f32 0x42800000#32

/-- The word `w` names segment `s`. -/
abbrev names (w : BitVec 32) (s : Fin 2048) : Prop := w.toInt = (s.val : ℤ)

/-- The one-hot entry: `1` when the word names the segment, else `0`. -/
def hot (w : BitVec 32) (s : Fin 2048) : EReal := if names w s then (1 : EReal) else 0

/-- The kernel accumulates 129 rows per segment: 64 channel sums, then 64 sums of squares, then one count. -/
abbrev rowSum (c : Fin 64) : Fin 129 := ⟨c.val, by have := c.isLt; omega⟩
abbrev rowSq (c : Fin 64) : Fin 129 := ⟨64 + c.val, by have := c.isLt; omega⟩
abbrev rowCnt : Fin 129 := ⟨128, by decide⟩

/-- Row `r` of the stacked left operand at one pixel whose channels are `x`: the channel, its square, or one. -/
def stackRow (x : Fin 64 → EReal) (r : Fin 129) : EReal :=
  if h : r.val < 64 then x ⟨r.val, h⟩
  else if h2 : r.val < 128 then x ⟨r.val - 64, by omega⟩ * x ⟨r.val - 64, by omega⟩
  else 1

/-- How many pixels segment `s` has. -/
def segCnt (id : SI.Idx → BitVec 32) (s : Fin 2048) : EReal :=
  ∑ p : Fin 1048576, if names (id (ix1 p)) s then (1 : EReal) else 0

/-- Channel `c` summed over segment `s`. -/
def segSum (x : SX.Idx → EReal) (id : SI.Idx → BitVec 32) (c : Fin 64) (s : Fin 2048) : EReal :=
  ∑ p : Fin 1048576, if names (id (ix1 p)) s then x (ix2 c p) else 0

/-- Channel `c`'s squares summed over segment `s`. -/
def segSq (x : SX.Idx → EReal) (id : SI.Idx → BitVec 32) (c : Fin 64) (s : Fin 2048) : EReal :=
  ∑ p : Fin 1048576, if names (id (ix1 p)) s then x (ix2 c p) * x (ix2 c p) else 0

/-- One segment's mean squared deviation over its channels and pixels, from the three statistics. -/
def perSeg (S1 S2 : Fin 64 → Fin 2048 → EReal) (N : Fin 2048 → EReal) (s : Fin 2048) : EReal :=
  Ideal.div (zeroW + ∑ c : Fin 64, (S2 c s - Ideal.div (S1 c s * S1 c s) (max (N s) oneW)))
    (chanW * max (N s) oneW)

/-- A segment of fewer than two pixels counts zero. -/
def masked (S1 S2 : Fin 64 → Fin 2048 → EReal) (N : Fin 2048 → EReal) (s : Fin 2048) : EReal :=
  Scalar.select (Ideal.cmp .oge (N s) twoW) (perSeg S1 S2 N s) zeroW

/-- How many segments have a pixel. -/
def occupied (N : Fin 2048 → EReal) : EReal :=
  ∑ s : Fin 2048, if Ideal.cmp .ogt (N s) zeroW = 1#1 then (1 : EReal) else 0

/-- The loss from the three statistics. -/
def loss (S1 S2 : Fin 64 → Fin 2048 → EReal) (N : Fin 2048 → EReal) : EReal :=
  Ideal.div (zeroW + ∑ s : Fin 2048, masked S1 S2 N s) (occupied N)

end SegVariance

end
-- ==== Proof.KernelPayload.lean ====
/-
  One grid point of the kernel, read at an index of its output block.

  The body stacks the tile's 64 channels, their squares and a row of ones into a 129 × 4096 left operand,
  compares the tile's 4096 segment words against the lane numbers 0 … 2047 into a 4096 × 2048 matrix of zeros
  and ones, multiplies the two and adds the product to what the output block held. At the extended reals the
  changes of float format are the identity, so entry (r, s) of the new block is the old entry plus the sum over
  the tile's pixels of row r's value at the pixel times the one-hot entry of the pixel's word at s.
-/
import proofs.«413109_j27453430956391_3_alg».proof.Proof.Gen.KernelIdeal.Skeleton
import proofs.«413109_j27453430956391_3_alg».proof.Proof.SegSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen SegVariance

/-- The 32-bit word of a lane number below 2048, read signed, is the number. -/
theorem toInt_lane (s : Fin 2048) : (BitVec.ofNat 32 s.val).toInt = (s.val : ℤ) := by
  have h := s.isLt
  rw [BitVec.toInt_ofNat', Int.bmod_def]
  omega

/-- A word equals the word of lane `s` exactly when it names segment `s`. -/
theorem lane_eq_iff (w : BitVec 32) (s : Fin 2048) : BitVec.ofNat 32 s.val = w ↔ names w s := by
  constructor
  · intro h
    show w.toInt = (s.val : ℤ)
    rw [← h]; exact toInt_lane s
  · intro h
    apply BitVec.eq_of_toInt_eq
    rw [toInt_lane]; exact h.symm

/-- The compare bit of lane `s` against word `w`, widened and read as a signed integer, is the one-hot entry. -/
theorem hot_word (w : BitVec 32) (s : Fin 2048) :
    FloatOps.sitofp (F := Ideal) .f32 ((IntOp.cmpi .eq (BitVec.ofNat 32 s.val) w).setWidth 32) = hot w s := by
  unfold hot
  by_cases h : names w s
  · rw [if_pos h]
    have e : BitVec.ofNat 32 s.val = w := (lane_eq_iff w s).2 h
    rw [e]
    show (((((BitVec.ofBool (w == w)).setWidth 32).toInt : ℤ) : ℝ) : EReal) = 1
    rw [beq_self_eq_true]
    have : ((BitVec.ofBool true).setWidth 32).toInt = 1 := by decide
    rw [this]; norm_num
  · rw [if_neg h]
    have e : ¬ BitVec.ofNat 32 s.val = w := fun e => h ((lane_eq_iff w s).1 e)
    show (((((BitVec.ofBool (BitVec.ofNat 32 s.val == w)).setWidth 32).toInt : ℤ) : ℝ) : EReal) = 0
    rw [beq_eq_false_iff_ne.2 e]
    have : ((BitVec.ofBool false).setWidth 32).toInt = 0 := by decide
    rw [this]; norm_num

/-- A `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (q, s) of the right operand: the one-hot entry of pixel q's word at segment s. -/
theorem onehot_apply (v6 : IVec S4096x1 32) (hi : S1x2048.Iotas .tc 32 [1]) (hb1 : S1x2048.Broadcasts S4096x2048)
    (hb2 : S4096x1.Broadcasts S4096x2048) (h32 : 1 < 32) (hbf : FTy.bits .bf16 < FTy.bits .f32)
    (q : Fin 4096) (s : Fin 2048) :
    (truncf .bf16 (sitofp (F := Ideal) .f32 (extui 32 (cmpi .eq (broadcastTo S4096x2048 (iota .tc S1x2048 32 [1] hi) hb1)
      (broadcastTo S4096x2048 v6 hb2)) h32)) hbf : FVec Ideal S4096x2048 .bf16) (ix2 q s)
      = hot (v6 (ix2 q (0 : Fin 1))) s := by
  rw [truncf_apply, sitofp_apply, extui_apply]
  show FloatOps.sitofp .f32 ((IntOp.cmpi .eq (broadcastTo S4096x2048 (iota .tc S1x2048 32 [1] hi) hb1 (ix2 q s))
      (broadcastTo S4096x2048 v6 hb2 (ix2 q s))).setWidth 32) = _
  rw [broadcastTo_1b_ab_apply, broadcastTo_a1_ab_apply, iota_single_apply]
  exact hot_word _ s

/-- Row `r` of the three pieces stacked along axis 0: the first piece's row `r` below 64, the second's row `r - 64`
    below 128, the third's one row at 128. -/
theorem stack_apply {α : Type} (A B : S64x4096.Idx → α) (C : S1x4096.Idx → α)
    (h : Shape.Concatenates [S64x4096, S64x4096, S1x4096] S129x4096 0) (r : Fin 129) (q : Fin 4096) :
    concatenate S129x4096 0 [⟨S64x4096, A⟩, ⟨S64x4096, B⟩, ⟨S1x4096, C⟩] h (ix2 r q)
      = if h1 : r.val < 64 then A (ix2 (⟨r.val, h1⟩ : Fin 64) q)
        else if h2 : r.val < 128 then B (ix2 (⟨r.val - 64, by omega⟩ : Fin 64) q)
        else C (ix2 (0 : Fin 1) q) := by
  by_cases h1 : r.val < 64
  · rw [dif_pos h1]
    refine concatenate_apply_piece (0 : Fin S129x4096.rank) [⟨S64x4096, A⟩, ⟨S64x4096, B⟩, ⟨S1x4096, C⟩] h (ix2 r q) 0 (show 0 < 3 by omega) S64x4096 A rfl rfl 0 rfl
      (ix2 (⟨r.val, h1⟩ : Fin 64) q) (fun b hb => ?_) ?_
    · match b with
      | ⟨0, _⟩ => exact absurd (Fin.ext rfl) hb
      | ⟨1, _⟩ => rfl
    · show 0 + r.val = r.val
      omega
  · rw [dif_neg h1]
    by_cases h2 : r.val < 128
    · rw [dif_pos h2]
      refine concatenate_apply_piece (0 : Fin S129x4096.rank) [⟨S64x4096, A⟩, ⟨S64x4096, B⟩, ⟨S1x4096, C⟩] h (ix2 r q) 1 (show 1 < 3 by omega) S64x4096 B rfl rfl 64 rfl
        (ix2 (⟨r.val - 64, by omega⟩ : Fin 64) q) (fun b hb => ?_) ?_
      · match b with
        | ⟨0, _⟩ => exact absurd (Fin.ext rfl) hb
        | ⟨1, _⟩ => rfl
      · show 64 + (r.val - 64) = r.val
        omega
    · rw [dif_neg h2]
      refine concatenate_apply_piece (0 : Fin S129x4096.rank) [⟨S64x4096, A⟩, ⟨S64x4096, B⟩, ⟨S1x4096, C⟩] h (ix2 r q) 2 (show 2 < 3 by omega) S1x4096 C rfl rfl 128 rfl
        (ix2 (0 : Fin 1) q) (fun b hb => ?_) ?_
      · match b with
        | ⟨0, _⟩ => exact absurd (Fin.ext rfl) hb
        | ⟨1, _⟩ => rfl
      · show 128 + 0 = r.val
        have := r.isLt
        omega

/-- The bf16 word of one, read at the extended reals. -/
theorem one_bf16 : Scalar.ofBits (F := Ideal) .bf16 0x3F80#16 = 1 := IdealRules.sign_bit.ideal_onePat .bf16

/-- Entry (r, q) of the left operand: row `r`'s value at pixel `q`, the channel, its square, or one. -/
theorem stacked_apply (v4 : FVec Ideal S64x4096 .f32) (hbf : FTy.bits .bf16 < FTy.bits .f32)
    (hc : Shape.Concatenates [S64x4096, S64x4096, S1x4096] S129x4096 0) (r : Fin 129) (q : Fin 4096) :
    (concatenate S129x4096 0 [⟨S64x4096, (truncf .bf16 v4 hbf : FVec Ideal S64x4096 .bf16)⟩,
        ⟨S64x4096, (truncf .bf16 (mulf v4 v4) hbf : FVec Ideal S64x4096 .bf16)⟩,
        ⟨S1x4096, (broadcast S1x4096 (Scalar.ofBits (F := Ideal) .bf16 0x3F80#16) : FVec Ideal S1x4096 .bf16)⟩] hc
      : FVec Ideal S129x4096 .bf16) (ix2 r q)
      = stackRow (fun ch : Fin 64 => v4 (ix2 ch q)) r := by
  refine (stack_apply _ _ _ hc r q).trans ?_
  unfold stackRow
  by_cases h1 : r.val < 64
  · rw [dif_pos h1, dif_pos h1, truncf_apply]
  · rw [dif_neg h1, dif_neg h1]
    by_cases h2 : r.val < 128
    · rw [dif_pos h2, dif_pos h2, truncf_apply, mulf_apply]
    · rw [dif_neg h2, dif_neg h2, broadcast_apply]
      exact one_bf16

/-- The product with a zero accumulator, read at (r, s): the sum over the tile's pixels of the operands' products. -/
theorem mm_apply {φ₁ φ₂ : FTy} (A : FVec Ideal S129x4096 φ₁) (B : FVec Ideal S4096x2048 φ₂) (r : Fin 129) (s : Fin 2048) :
    matmul dot_S129x4096_S4096x2048_S129x2048_1_0_0_1_n_n none A B (constant (F := Ideal) S129x2048 .f32 0x00000000#32) (ix2 r s)
      = ∑ q : Fin 4096, A (ix2 r q) * B (ix2 q s) := by
  show FloatOps.matmul _ none A B _ (ix2 r s) = _
  rw [Ideal.matmul_constant_zero_apply,
    ← Equiv.sum_comp (contrEquiv1 dot_S129x4096_S4096x2048_S129x2048_1_0_0_1_n_n 4096 rfl rfl).symm]
  refine Finset.sum_congr rfl fun c _ => ?_
  have c2 := contrEquiv1_symm_val dot_S129x4096_S4096x2048_S129x2048_1_0_0_1_n_n 4096 rfl rfl c
  have l2 : dot_S129x4096_S4096x2048_S129x2048_1_0_0_1_n_n.lhsIdx (ix2 r s) ((contrEquiv1 _ 4096 rfl rfl).symm c) = ix2 r c := by
    funext ax; apply Fin.ext
    match ax with
    | ⟨0, _⟩ => simp [DotDims.lhsIdx, dot_S129x4096_S4096x2048_S129x2048_1_0_0_1_n_n]; rfl
    | ⟨1, _⟩ => simp [DotDims.lhsIdx, dot_S129x4096_S4096x2048_S129x2048_1_0_0_1_n_n]; exact c2
  have r2 : dot_S129x4096_S4096x2048_S129x2048_1_0_0_1_n_n.rhsIdx (ix2 r s) ((contrEquiv1 _ 4096 rfl rfl).symm c) = ix2 c s := by
    funext ax; apply Fin.ext
    match ax with
    | ⟨0, _⟩ => simp [DotDims.rhsIdx, dot_S129x4096_S4096x2048_S129x2048_1_0_0_1_n_n]; exact c2
    | ⟨1, _⟩ => simp [DotDims.rhsIdx, dot_S129x4096_S4096x2048_S129x2048_1_0_0_1_n_n]; rfl
  rw [l2, r2]

/-- The block the first point of each half stores before accumulating is zero everywhere. -/
theorem zero_block (j : S1x129x2048.Idx) : (k0_pay1 (F := Ideal)) j = 0 := by
  obtain ⟨u, r, s, rfl⟩ : ∃ (u : Fin 1) (r : Fin 129) (s : Fin 2048), j = ix3 u r s := ⟨j 0, j 1, j 2, eq_ix3 j⟩
  unfold k0_pay1
  refine (shapeCast_ab_1ab_apply _ _ u r s).trans ?_
  rw [broadcast_apply]
  exact Ideal.ofBits_zero_f32

/-- Entry (r, s) after one point: the entry before plus the tile's contribution. -/
theorem accumulate_apply (x0 : Vec Ideal S64x4096 .f32) (x1 : Vec Ideal S4096x1 .i32) (xo : Vec Ideal S1x129x2048 .f32)
    (r : Fin 129) (s : Fin 2048) :
    k0_pay2 (F := Ideal) x0 x1 xo (ix3 (0 : Fin 1) r s)
      = xo (ix3 (0 : Fin 1) r s)
        + ∑ q : Fin 4096, stackRow (fun ch : Fin 64 => x0 (ix2 ch q)) r * hot (x1 (ix2 q (0 : Fin 1))) s := by
  unfold k0_pay2
  simp only [shapeCast_self]
  refine (shapeCast_ab_1ab_apply _ _ (0 : Fin 1) r s).trans ?_
  rw [addf_apply, shapeCast_1ab_ab_apply]
  refine congrArg (xo (ix3 (0 : Fin 1) r s) + ·) ?_
  refine (mm_apply _ _ r s).trans ?_
  refine Finset.sum_congr rfl fun q _ => ?_
  rw [stacked_apply, onehot_apply, shapeCast_self]

end Cert.KernelIdeal.Payload

end
-- ==== Proof.KernelAccum.lean ====
/-
  What the kernel's output block holds after each grid point.

  The grid has 256 points; point t handles pixel tile t (pixels 4096·t … 4096·t + 4095) and the points
  128·h … 128·h + 127 share output block h. The first point of each half stores a zero block and then adds its
  tile's contribution; every later point adds its tile's contribution to what the point before left. So after
  point n the block holds, entry by entry, the sum of the contributions of the tiles 128·(n / 128) … n.
-/
import proofs.«413109_j27453430956391_3_alg».proof.Proof.Gen.KernelIdeal.Frame
import proofs.«413109_j27453430956391_3_alg».proof.Proof.KernelPayload
import Idealize.ShloMosaic.Lib.Pipeline.Value
import Idealize.ShloMosaic.Lib.Tactic

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen SegVariance

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later point of a half: the block ends at the accumulate value of the two input tiles and what it held. -/
theorem later_point (c : Dev nD) (i : grid0.Coords) (a2 : Memref sig .tc .vmem S64x4096 .f32) (h2 : a2.IsWhole)
    (a3 : Memref sig .tc .vmem S4096x1 .i32) (h3 : a3.IsWhole) (a4 : Memref sig .tc .vmem S1x129x2048 .f32) (h4 : a4.IsWhole)
    (hc : ¬cond0_0 i) (x0 : Vec F S64x4096 .f32) (x1 : Vec F S4096x1 .i32) (xo : Vec F S1x129x2048 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S64x4096) hz2,
    View.ld_unit_zero (S := S4096x1) hz2, View.ld_unit_zero (S := S1x129x2048) hz3]

/-- The first point of a half: the zero block is stored first, so the block ends at the accumulate value over zero. -/
theorem first_point (c : Dev nD) (i : grid0.Coords) (a2 : Memref sig .tc .vmem S64x4096 .f32) (h2 : a2.IsWhole)
    (a3 : Memref sig .tc .vmem S4096x1 .i32) (h3 : a3.IsWhole) (a4 : Memref sig .tc .vmem S1x129x2048 .f32) (h4 : a4.IsWhole)
    (hc : cond0_0 i) (x0 : Vec F S64x4096 .f32) (x1 : Vec F S4096x1 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x129x2048) hz3, View.readCov_unit_zero (S := S1x129x2048) _ hz3]
  simp only [View.readAt_eq_ld, h2.read_unread, h3.read_unread, View.ld_unit_zero (S := S64x4096) hz2,
    View.ld_unit_zero (S := S4096x1) hz2]

/-! ## At the extended reals: tiles of the two arrays, and the running sum -/

variable (m : (ℓ : Loc nD τ sig) → Buf (Elt Ideal) ℓ)

/-- The channels-by-pixels array and the column of segment words, as the region finds them. -/
abbrev pixArr (c : Dev nD) : Vec Ideal S64x1048576 .f32 := V m c main_v2
abbrev wordArr (c : Dev nD) : Vec Ideal S1048576x1 .i32 := V m c main_v5
/-- Their tiles at point `t`. -/
abbrev pixBlk (c : Dev nD) (t : Fin cfg0.N) : Vec Ideal S64x4096 .f32 := iblk m c 0 t
abbrev wordBlk (c : Dev nD) (t : Fin cfg0.N) : Vec Ideal S4096x1 .i32 := iblk m c 1 t

theorem tile_bound (t : Fin cfg0.N) (q : Fin 4096) : t.val * 4096 + q.val < 1048576 := by
  have hN : cfg0.N = 256 := N_0
  have := t.isLt; have := q.isLt; omega

/-- A tile of ANY channels-by-pixels array at point `t`: columns 4096·t … 4096·t + 4095, every channel. -/
theorem pix_read (f : Vec Ideal S64x1048576 .f32) (t : Fin cfg0.N) (ch : Fin 64) (q : Fin 4096) :
    ((cfg0.win 0).blk t).view.read (Elt Ideal) f (ix2 ch q) = f (ix2 ch ⟨t.val * 4096 + q.val, tile_bound t q⟩) := by
  have hi : win0_0.index t 0 = 0 ∧ win0_0.index t 1 = t.val :=
    (by decide +kernel : ∀ t : Fin grid0.N, win0_0.index t 0 = 0 ∧ win0_0.index t 1 = t.val) t
  show f (((cfg0.win 0).blk t).view.emb (ix2 ch q)) = f _
  refine congrArg f (funext fun a => Fin.ext ?_)
  match a with
  | ⟨0, _⟩ => show win0_0.index t 0 * 64 + 1 * ch.val = ch.val; rw [hi.1]; omega
  | ⟨1, _⟩ => show win0_0.index t 1 * 4096 + 1 * q.val = t.val * 4096 + q.val; rw [hi.2]; omega

/-- A tile of ANY column of words at point `t`: rows 4096·t … 4096·t + 4095. -/
theorem word_read (f : Vec Ideal S1048576x1 .i32) (t : Fin cfg0.N) (q : Fin 4096) :
    ((cfg0.win 1).blk t).view.read (Elt Ideal) f (ix2 q (0 : Fin 1))
      = f (ix2 ⟨t.val * 4096 + q.val, tile_bound t q⟩ (0 : Fin 1)) := by
  have hi : win0_1.index t 0 = t.val ∧ win0_1.index t 1 = 0 :=
    (by decide +kernel : ∀ t : Fin grid0.N, win0_1.index t 0 = t.val ∧ win0_1.index t 1 = 0) t
  show f (((cfg0.win 1).blk t).view.emb (ix2 q (0 : Fin 1))) = f _
  refine congrArg f (funext fun a => Fin.ext ?_)
  match a with
  | ⟨0, _⟩ => show win0_1.index t 0 * 4096 + 1 * q.val = t.val * 4096 + q.val; rw [hi.1]; omega
  | ⟨1, _⟩ => show win0_1.index t 1 * 1 + 1 * 0 = 0; rw [hi.2]

/-- The pixel tile at point `t` is columns 4096·t … 4096·t + 4095 of the pixel array, every channel. -/
theorem pixBlk_apply (c : Dev nD) (t : Fin cfg0.N) (ch : Fin 64) (q : Fin 4096) :
    pixBlk m c t (ix2 ch q) = pixArr m c (ix2 ch ⟨t.val * 4096 + q.val, tile_bound t q⟩) :=
  pix_read (V m c main_v2) t ch q

/-- The word tile at point `t` is rows 4096·t … 4096·t + 4095 of the word column. -/
theorem wordBlk_apply (c : Dev nD) (t : Fin cfg0.N) (q : Fin 4096) :
    wordBlk m c t (ix2 q (0 : Fin 1)) = wordArr m c (ix2 ⟨t.val * 4096 + q.val, tile_bound t q⟩ (0 : Fin 1)) :=
  word_read (V m c main_v5) t q

/-- Pixel `p`'s term in entry (r, s): row r's value at the pixel times the one-hot entry of its word at s
    (zero past the last pixel, so that sums may range over the naturals). -/
def pixTerm (c : Dev nD) (r : Fin 129) (s : Fin 2048) (p : ℕ) : EReal :=
  if h : p < 1048576 then
    stackRow (fun ch : Fin 64 => pixArr m c (ix2 ch ⟨p, h⟩)) r * hot (wordArr m c (ix2 ⟨p, h⟩ (0 : Fin 1))) s
  else 0

/-- Tile `t`'s contribution to entry (r, s). -/
def tileTerm (c : Dev nD) (r : Fin 129) (s : Fin 2048) (t : ℕ) : EReal :=
  ∑ q ∈ Finset.range 4096, pixTerm m c r s (t * 4096 + q)

/-- One point adds its tile's contribution to every entry of the block. -/
theorem point_apply (c : Dev nD) (t : Fin cfg0.N) (xo : Vec Ideal S1x129x2048 .f32) (r : Fin 129) (s : Fin 2048) :
    k0_pay2 (F := Ideal) (pixBlk m c t) (wordBlk m c t) xo (ix3 (0 : Fin 1) r s)
      = xo (ix3 (0 : Fin 1) r s) + tileTerm m c r s t.val := by
  rw [Payload.accumulate_apply]
  congr 1
  unfold tileTerm
  rw [← Fin.sum_univ_eq_sum_range (fun q => pixTerm m c r s (t.val * 4096 + q)) 4096]
  refine Finset.sum_congr rfl fun q _ => ?_
  unfold pixTerm
  rw [dif_pos (tile_bound t q), wordBlk_apply m c t q,
    show (fun ch : Fin 64 => pixBlk m c t (ix2 ch q)) = fun ch : Fin 64 => pixArr m c (ix2 ch ⟨t.val * 4096 + q.val, tile_bound t q⟩)
      from funext fun ch => pixBlk_apply m c t ch q]

/-- After point `n` the block holds, entry by entry, the contributions of the tiles of its half up to `n`. -/
theorem block_after (c : Dev nD) : ∀ (n : ℕ) (h : n < cfg0.N) (r : Fin 129) (s : Fin 2048),
    outsAt0 m c n h (ix3 (0 : Fin 1) r s) = ∑ t ∈ Finset.Ico (128 * (n / 128)) (n + 1), tileTerm m c r s t
  | 0, h, r, s => by
    rw [outsAt0_A m c ⟨0, h⟩ rfl, first_point]
    refine (point_apply m c ⟨0, h⟩ _ r s).trans ?_
    rw [Payload.zero_block, zero_add]
    show _ = ∑ t ∈ Finset.Ico 0 (0 + 1), tileTerm m c r s t
    rw [Finset.sum_Ico_succ_top (le_refl 0), Finset.Ico_self, Finset.sum_empty, zero_add]
  | n + 1, h, r, s => by
    by_cases h0 : (n + 1) % 128 = 0
    · rw [outsAt0_A m c ⟨n + 1, h⟩ h0, first_point]
      refine (point_apply m c ⟨n + 1, h⟩ _ r s).trans ?_
      rw [Payload.zero_block, zero_add]
      have e : 128 * ((n + 1) / 128) = n + 1 := by omega
      rw [e, Finset.sum_Ico_succ_top (le_refl (n + 1)), Finset.Ico_self, Finset.sum_empty, zero_add]
    · rw [outsAt0_B m c ⟨n + 1, h⟩ h0, later_point]
      refine (point_apply m c ⟨n + 1, h⟩ _ r s).trans ?_
      show outsAt0 m c n _ (ix3 (0 : Fin 1) r s) + _ = _
      rw [block_after c n _ r s]
      have e : 128 * ((n + 1) / 128) = 128 * (n / 128) := by omega
      rw [e, Finset.sum_Ico_succ_top (by omega : 128 * (n / 128) ≤ n + 1)]

end Cert.KernelIdeal.Accum

end
-- ==== Proof.KernelTail.lean ====
/-
  The host operations after the kernel's region, as one function of the accumulator array.

  The region leaves a 2 × 129 × 2048 array: for each half of the pixels, 129 rows per segment (64 channel sums,
  64 sums of squares, one count). The host adds the two halves, cuts the three groups of rows apart and computes
  the loss from them exactly as the specification's `loss` does from its three statistics: this module says so,
  entry by entry.
-/
import proofs.«413109_j27453430956391_3_alg».proof.Proof.Gen.KernelIdeal
import proofs.«413109_j27453430956391_3_alg».proof.Proof.SegSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Tail

open Idealize.ShloMosaic Idealize.ShloMosaic.ValueIdx Cert.KernelIdeal SegVariance
open Facts₀

/-! ## The stages, each read at an index over a variable operand -/

/-- The two halves added: row `r`, segment `s` of the sum is the initial zero plus the sum over the halves. -/
theorem halves_apply (A : FVec Ideal S2x129x2048 .f32) (r : Fin 129) (s : Fin 2048) :
    Host.reduceAdd A (constant (F := Ideal) S_ .f32 0x00000000#32) reducesTo_S2x129x2048_S129x2048_d0 h_S_ (ix2 r s)
      = zeroW + ∑ h : Fin 2, A (ix3 h r s) := by
  simp only [Host.reduceAdd, Ideal.hostReduceAdd_def]
  rw [Ideal.hostReduceAdd_single reducesTo_S2x129x2048_S129x2048_d0 (by decide)]
  refine congrArg (_ + ·) (Finset.sum_congr rfl fun k _ => ?_)
  exact congrArg A (funext fun a => Fin.ext (by match a with | ⟨0, _⟩ => rfl | ⟨1, _⟩ => rfl | ⟨2, _⟩ => rfl))

/-- The first 64 rows are the channel sums. -/
theorem rowsSum_apply (acc : FVec Ideal S129x2048 .f32) (c : Fin 64) (s : Fin 2048) :
    extractStridedSlice S64x2048 ![0, 0] acc slices_S129x2048_S64x2048_0_0 (ix2 c s) = acc (ix2 (rowSum c) s) :=
  extractStridedSlice_apply ![0, 0] acc slices_S129x2048_S64x2048_0_0 (ix2 c s) (ix2 (rowSum c) s) (fun a => match a with
    | ⟨0, _⟩ => by show c.val = 0 + c.val; omega
    | ⟨1, _⟩ => by show s.val = 0 + s.val; omega)

/-- The next 64 rows are the sums of squares. -/
theorem rowsSq_apply (acc : FVec Ideal S129x2048 .f32) (c : Fin 64) (s : Fin 2048) :
    extractStridedSlice S64x2048 ![64, 0] acc slices_S129x2048_S64x2048_64_0 (ix2 c s) = acc (ix2 (rowSq c) s) :=
  extractStridedSlice_apply ![64, 0] acc slices_S129x2048_S64x2048_64_0 (ix2 c s) (ix2 (rowSq c) s) (fun a => match a with
    | ⟨0, _⟩ => by show 64 + c.val = 64 + c.val; rfl
    | ⟨1, _⟩ => by show s.val = 0 + s.val; omega)

/-- The last row, flattened, is the count. -/
theorem rowCnt_apply (acc : FVec Ideal S129x2048 .f32) (s : Fin 2048) :
    shapeCast S2048 (extractStridedSlice S1x2048 ![128, 0] acc slices_S129x2048_S1x2048_128_0) shapeCasts_S1x2048_S2048 (ix1 s)
      = acc (ix2 rowCnt s) := by
  refine (shapeCast_apply _ shapeCasts_S1x2048_S2048 (ix1 s) (ix2 (0 : Fin 1) s)
    (by rewrite [Shape.rowMajor_val_two, Shape.rowMajor_val_one]; show 0 * 2048 + s.val = s.val; omega)).trans ?_
  exact extractStridedSlice_apply ![128, 0] acc slices_S129x2048_S1x2048_128_0 (ix2 (0 : Fin 1) s) (ix2 rowCnt s) (fun a => match a with
    | ⟨0, _⟩ => by show 128 = 128 + 0; rfl
    | ⟨1, _⟩ => by show s.val = 0 + s.val; omega)

/-- A scalar constant spread over the segments reads the constant's value at every segment. -/
theorem splat_apply (w : BitVec 32) (s : Fin 2048) :
    broadcastInDim S2048 ![] bcast_S_S2048 (constant (F := Ideal) S_ .f32 w) (ix1 s) = Ideal.ofBits .f32 w :=
  broadcastInDim_apply _ bcast_S_S2048 (constant (F := Ideal) S_ .f32 w) (ix1 s) (fun a => a.elim0) (fun a => a.elim0)

/-- A per-segment array spread over the channels reads the segment's entry. -/
theorem spread_apply (n : FVec Ideal S2048 .f32) (c : Fin 64) (s : Fin 2048) :
    broadcastInDim S64x2048 ![0, 1] bcast_S1x2048_S64x2048_0_1 (broadcastInDim S1x2048 ![1] bcast_S2048_S1x2048_1 n) (ix2 c s)
      = n (ix1 s) := by
  refine (broadcastInDim_apply _ bcast_S1x2048_S64x2048_0_1 _ (ix2 c s) (ix2 (0 : Fin 1) s) (fun a => match a with
    | ⟨0, _⟩ => by show 0 = if (1 : Nat) = 1 then 0 else c.val; rw [if_pos rfl]
    | ⟨1, _⟩ => by show s.val = if (2048 : Nat) = 1 then 0 else s.val; rw [if_neg (by decide)])).trans ?_
  exact broadcastInDim_apply _ bcast_S2048_S1x2048_1 n (ix2 (0 : Fin 1) s) (ix1 s) (fun a => match a with
    | ⟨0, _⟩ => by show s.val = if (2048 : Nat) = 1 then 0 else s.val; rw [if_neg (by decide)])

/-- The sum over the channels: the initial zero plus the sum over the 64 rows. -/
theorem sumChan_apply (d : FVec Ideal S64x2048 .f32) (s : Fin 2048) :
    Host.reduceAdd d (constant (F := Ideal) S_ .f32 0x00000000#32) reducesTo_S64x2048_S2048_d0 h_S_ (ix1 s)
      = zeroW + ∑ c : Fin 64, d (ix2 c s) := by
  simp only [Host.reduceAdd, Ideal.hostReduceAdd_def]
  rw [Ideal.hostReduceAdd_single reducesTo_S64x2048_S2048_d0 (by decide)]
  refine congrArg (_ + ·) (Finset.sum_congr rfl fun k _ => ?_)
  exact congrArg d (funext fun a => Fin.ext (by match a with | ⟨0, _⟩ => rfl | ⟨1, _⟩ => rfl))

/-- A sum over the rank-one index set is the sum over its coordinate. -/
theorem sum_ix1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-- The sum over the segments into a scalar: the initial zero plus the sum over the 2048 entries. -/
theorem sumSeg_apply (v : FVec Ideal S2048 .f32) (j : S_.Idx) :
    Host.reduceAdd v (constant (F := Ideal) S_ .f32 0x00000000#32) reducesTo_S2048_S_d0 h_S_ j
      = zeroW + ∑ s : Fin 2048, v (ix1 s) := by
  simp only [Host.reduceAdd, Ideal.hostReduceAdd_def]
  rw [Ideal.hostReduceAdd_total reducesTo_S2048_S_d0 (fun b => b.elim0) v _ j, sum_ix1]
  rfl

/-! ## The pointwise stages -/

/-- The count, at least one. -/
theorem atLeastOne_apply (cnt : FVec Ideal S2048 .f32) (s : Fin 2048) :
    maximumf cnt (broadcastInDim S2048 ![] bcast_S_S2048 (constant (F := Ideal) S_ .f32 0x3F800000#32)) (ix1 s)
      = max (cnt (ix1 s)) oneW := by
  rw [maximumf_apply, splat_apply]

/-- The deviation of one channel of one segment: the sum of squares less the squared sum over the count. -/
theorem dev_apply (s1 s2 : FVec Ideal S64x2048 .f32) (n : FVec Ideal S2048 .f32) (c : Fin 64) (s : Fin 2048) :
    subf s2 (Host.divf (mulf s1 s1)
      (broadcastInDim S64x2048 ![0, 1] bcast_S1x2048_S64x2048_0_1 (broadcastInDim S1x2048 ![1] bcast_S2048_S1x2048_1 n))) (ix2 c s)
      = s2 (ix2 c s) - Ideal.div (s1 (ix2 c s) * s1 (ix2 c s)) (n (ix1 s)) := by
  rw [subf_apply]
  show _ - Ideal.div (mulf s1 s1 (ix2 c s)) _ = _
  rw [mulf_apply, spread_apply]

/-- One segment's quotient: the summed deviations over 64 times the count. -/
theorem per_apply (R n : FVec Ideal S2048 .f32) (s : Fin 2048) :
    Host.divf R (mulf (broadcastInDim S2048 ![] bcast_S_S2048 (constant (F := Ideal) S_ .f32 0x42800000#32)) n) (ix1 s)
      = Ideal.div (R (ix1 s)) (chanW * n (ix1 s)) := by
  show Ideal.div (R (ix1 s)) (mulf _ n (ix1 s)) = _
  rw [mulf_apply, splat_apply]

/-- The comparison of the count with a constant. -/
theorem cmpSplat_apply (p : CmpFPredicate) (cnt : FVec Ideal S2048 .f32) (w : BitVec 32) (s : Fin 2048) :
    cmpf (F := Ideal) p cnt (broadcastInDim S2048 ![] bcast_S_S2048 (constant (F := Ideal) S_ .f32 w)) (ix1 s)
      = Ideal.cmp p (cnt (ix1 s)) (Ideal.ofBits .f32 w) := by
  rw [cmpf_apply, splat_apply, Ideal.cmpf_def]

/-- The masked quotient. -/
theorem msk_apply (valid : IVec S2048 1) (per : FVec Ideal S2048 .f32) (s : Fin 2048) :
    select valid per (broadcastInDim S2048 ![] bcast_S_S2048 (constant (F := Ideal) S_ .f32 0x00000000#32)) (ix1 s)
      = Scalar.select (valid (ix1 s)) (per (ix1 s)) zeroW := by
  rw [select_apply, splat_apply]

/-- A one-bit word read as an unsigned number is one when the bit is set, else zero. -/
theorem uitofp_bit (b : BitVec 1) : FloatOps.uitofp (F := Ideal) .f32 b = if b = 1#1 then (1 : EReal) else 0 := by
  show ((b.toNat : ℝ) : EReal) = _
  by_cases h : b = 1#1
  · rw [if_pos h, h]; norm_num
  · rw [if_neg h, eq_zero_of_ne_one h]; norm_num

/-- The host's quotient at an index is the quotient of the entries. -/
theorem hostDivf_apply {s : Shape} (x y : FVec Ideal s .f32) (i : s.Idx) : Host.divf x y i = Ideal.div (x i) (y i) := rfl

/-- An unsigned conversion at an index converts the entry. -/
theorem uitofp_apply {s : Shape} {w : Nat} (x : IVec s w) (i : s.Idx) :
    (uitofp (F := Ideal) .f32 x : FVec Ideal s .f32) i = FloatOps.uitofp (F := Ideal) .f32 (x i) := rfl

/-! ## The three groups of rows of the added halves -/

/-- Channel `c`'s sum row of the added halves. -/
theorem sumHalves_apply (A : FVec Ideal S2x129x2048 .f32) (c : Fin 64) (s : Fin 2048) :
    extractStridedSlice S64x2048 ![0, 0]
      (Host.reduceAdd A (constant (F := Ideal) S_ .f32 0x00000000#32) reducesTo_S2x129x2048_S129x2048_d0 h_S_)
      slices_S129x2048_S64x2048_0_0 (ix2 c s)
      = zeroW + ∑ h : Fin 2, A (ix3 h (rowSum c) s) :=
  (rowsSum_apply _ c s).trans (halves_apply A (rowSum c) s)

/-- Channel `c`'s sum-of-squares row of the added halves. -/
theorem sqHalves_apply (A : FVec Ideal S2x129x2048 .f32) (c : Fin 64) (s : Fin 2048) :
    extractStridedSlice S64x2048 ![64, 0]
      (Host.reduceAdd A (constant (F := Ideal) S_ .f32 0x00000000#32) reducesTo_S2x129x2048_S129x2048_d0 h_S_)
      slices_S129x2048_S64x2048_64_0 (ix2 c s)
      = zeroW + ∑ h : Fin 2, A (ix3 h (rowSq c) s) :=
  (rowsSq_apply _ c s).trans (halves_apply A (rowSq c) s)

/-- The count row of the added halves. -/
theorem cntHalves_apply (A : FVec Ideal S2x129x2048 .f32) (s : Fin 2048) :
    shapeCast S2048 (extractStridedSlice S1x2048 ![128, 0]
      (Host.reduceAdd A (constant (F := Ideal) S_ .f32 0x00000000#32) reducesTo_S2x129x2048_S129x2048_d0 h_S_)
      slices_S129x2048_S1x2048_128_0) shapeCasts_S1x2048_S2048 (ix1 s)
      = zeroW + ∑ h : Fin 2, A (ix3 h rowCnt s) :=
  (rowCnt_apply _ s).trans (halves_apply A rowCnt s)

/-- The host tail: the two halves added, the rows cut into sums, sums of squares and counts, then the loss. -/
def ktail (A : FVec Ideal S2x129x2048 .f32) : FVec Ideal S_ .f32 :=
  let acc : FVec Ideal S129x2048 .f32 :=
    Host.reduceAdd A (constant (F := Ideal) S_ .f32 0x00000000#32) reducesTo_S2x129x2048_S129x2048_d0 h_S_
  let s1 : FVec Ideal S64x2048 .f32 := extractStridedSlice S64x2048 ![0, 0] acc slices_S129x2048_S64x2048_0_0
  let s2 : FVec Ideal S64x2048 .f32 := extractStridedSlice S64x2048 ![64, 0] acc slices_S129x2048_S64x2048_64_0
  let cnt : FVec Ideal S2048 .f32 :=
    shapeCast S2048 (extractStridedSlice S1x2048 ![128, 0] acc slices_S129x2048_S1x2048_128_0) shapeCasts_S1x2048_S2048
  let n : FVec Ideal S2048 .f32 :=
    maximumf cnt (broadcastInDim S2048 ![] bcast_S_S2048 (constant (F := Ideal) S_ .f32 0x3F800000#32))
  let dev : FVec Ideal S64x2048 .f32 :=
    subf s2 (Host.divf (mulf s1 s1)
      (broadcastInDim S64x2048 ![0, 1] bcast_S1x2048_S64x2048_0_1 (broadcastInDim S1x2048 ![1] bcast_S2048_S1x2048_1 n)))
  let per : FVec Ideal S2048 .f32 :=
    Host.divf (Host.reduceAdd dev (constant (F := Ideal) S_ .f32 0x00000000#32) reducesTo_S64x2048_S2048_d0 h_S_)
      (mulf (broadcastInDim S2048 ![] bcast_S_S2048 (constant (F := Ideal) S_ .f32 0x42800000#32)) n)
  let valid : IVec S2048 1 :=
    cmpf (F := Ideal) .oge cnt (broadcastInDim S2048 ![] bcast_S_S2048 (constant (F := Ideal) S_ .f32 0x40000000#32))
  let msk : FVec Ideal S2048 .f32 :=
    select valid per (broadcastInDim S2048 ![] bcast_S_S2048 (constant (F := Ideal) S_ .f32 0x00000000#32))
  let num : FVec Ideal S_ .f32 :=
    Host.reduceAdd msk (constant (F := Ideal) S_ .f32 0x00000000#32) reducesTo_S2048_S_d0 h_S_
  let occ : FVec Ideal S_ .f32 :=
    Host.reduceAdd
      (uitofp (F := Ideal) .f32
        (cmpf (F := Ideal) .ogt cnt (broadcastInDim S2048 ![] bcast_S_S2048 (constant (F := Ideal) S_ .f32 0x00000000#32))))
      (constant (F := Ideal) S_ .f32 0x00000000#32) reducesTo_S2048_S_d0 h_S_
  Host.divf num occ

/-- The host tail is the specification's loss of the three groups of rows, the two halves added. -/
theorem ktail_loss (A : FVec Ideal S2x129x2048 .f32) :
    ktail A = fun _ => loss
      (fun c s => zeroW + ∑ h : Fin 2, A (ix3 h (rowSum c) s))
      (fun c s => zeroW + ∑ h : Fin 2, A (ix3 h (rowSq c) s))
      (fun s => zeroW + ∑ h : Fin 2, A (ix3 h rowCnt s)) := by
  funext j
  have hz : ∀ x : EReal, zeroW + x = x := fun x => by
    rw [show zeroW = 0 from Ideal.ofBits_zero_f32, zero_add]
  unfold ktail loss occupied masked perSeg
  rw [hostDivf_apply, sumSeg_apply, sumSeg_apply]
  refine congrArg₂ Ideal.div ?_ ?_
  · -- the numerator, segment by segment
    refine congrArg (zeroW + ·) (Finset.sum_congr rfl fun s _ => ?_)
    refine (msk_apply _ _ s).trans ?_
    refine congrArg₂ (fun b v => Scalar.select b v zeroW) ?_ ?_
    · -- the mask bit compares the count with two
      refine (cmpSplat_apply .oge _ _ s).trans (congrArg (fun v => Ideal.cmp .oge v twoW) ?_)
      exact cntHalves_apply A s
    · -- the quotient: the channels' deviations summed, over 64 times the count
      refine (per_apply _ _ s).trans ?_
      refine congrArg₂ Ideal.div ?_ (congrArg (chanW * ·) ?_)
      · refine (sumChan_apply _ s).trans (congrArg (zeroW + ·) (Finset.sum_congr rfl fun c _ => ?_))
        refine (dev_apply _ _ _ c s).trans ?_
        refine congrArg₂ (· - ·) (sqHalves_apply A c s)
          (congrArg₂ Ideal.div (congrArg₂ (· * ·) (sumHalves_apply A c s) (sumHalves_apply A c s)) ?_)
        exact (atLeastOne_apply _ s).trans (congrArg (max · oneW) (cntHalves_apply A s))
      · exact (atLeastOne_apply _ s).trans (congrArg (max · oneW) (cntHalves_apply A s))
  · -- the denominator: the leading zero adds nothing, and a set bit counts one
    refine (hz _).trans (Finset.sum_congr rfl fun s _ => ?_)
    refine (uitofp_apply _ (ix1 s)).trans ?_
    rw [cmpSplat_apply, uitofp_bit, cntHalves_apply]

end Cert.KernelIdeal.Tail

end
-- ==== Proof.KernelArray.lean ====
/-
  The kernel's accumulator array after the region, and the kernel's result.

  Output block h (h = 0, 1) is written back once, after point 128·h + 127, when it holds the contributions of the
  tiles 128·h … 128·h + 127; the two blocks are the two halves of the 2 × 129 × 2048 array, so the array ends at
  `halves`: entry (h, r, s) is the sum of those tiles' contributions to (r, s). The host operations after the
  region then compute the result from that array.
-/
import proofs.«413109_j27453430956391_3_alg».proof.Proof.KernelAccum
import proofs.«413109_j27453430956391_3_alg».proof.Proof.KernelTail
import Idealize.ShloMosaic.Lib.StableHlo.Run

set_option maxRecDepth 16384

noncomputable section

namespace Cert.KernelIdeal.Accum

open Idealize.ShloMosaic Idealize.ShloMosaic.TcCoe Idealize.ShloMosaic.ValueIdx Idealize.SL.Sem
open Idealize.ShloMosaic.Tactic Idealize.ShloMosaic.StableHlo
open Idealize.ShloMosaic.Pipeline (Dat)
open Cert.KernelIdeal Cert.KernelIdeal.Gen SegVariance

variable (m : (ℓ : Loc nD τ sig) → Buf (Elt Ideal) ℓ) (ρ : Dev nD → PrngReg)

/-- The accumulator array: entry (h, r, s) sums the contributions of the 128 tiles of half h. -/
def halves (c : Dev nD) : Vec Ideal S2x129x2048 .f32 := fun j =>
  ∑ t ∈ Finset.Ico (128 * (j 0).val) (128 * (j 0).val + 128), tileTerm m c (j 1) (j 2) t

theorem halves_apply (c : Dev nD) (h : Fin 2) (r : Fin 129) (s : Fin 2048) :
    halves m c (ix3 h r s) = ∑ t ∈ Finset.Ico (128 * h.val) (128 * h.val + 128), tileTerm m c r s t := rfl

/-- Where the output window's block sits at point `t`: half t / 128, all rows, all segments. -/
theorem out_index (t : Fin cfg0.N) : win0_2.index t 0 = t.val / 128 ∧ win0_2.index t 1 = 0 ∧ win0_2.index t 2 = 0 :=
  (by decide +kernel : ∀ t : Fin grid0.N, win0_2.index t 0 = t.val / 128 ∧ win0_2.index t 1 = 0 ∧ win0_2.index t 2 = 0) t

/-- What a flushing point writes back is its half of `halves`. -/
theorem flushed_eq (c : Dev nD) (t : Fin cfg0.N) (hf : (cfg0.win 2).flush t = true) :
    (dats m 0 c).flushed 2 t = ((cfg0.win 2).blk t).view.read (Elt Ideal) (halves m c) := by
  have hN : cfg0.N = 256 := N_0
  have h127 : t.val % 128 = 127 := (flush0_2 t).mp hf
  have hi := out_index t
  refine funext fun (y : S1x129x2048.Idx) => ?_
  obtain ⟨a, r, s, rfl⟩ : ∃ (a : Fin 1) (r : Fin 129) (s : Fin 2048), y = ix3 a r s := ⟨y 0, y 1, y 2, eq_ix3 y⟩
  have hlt : t.val / 128 < 2 := by have := t.isLt; omega
  have e1 : (cfg0.win 2).xinj (grid0.coords t) (ix3 a r s) = ix3 (0 : Fin 1) r s :=
    funext fun d => Fin.ext (by
      match d with
      | ⟨0, _⟩ => show a.val = 0; have := a.isLt; omega
      | ⟨1, _⟩ => rfl
      | ⟨2, _⟩ => rfl)
  have e2 : ((cfg0.win 2).blk t).view.emb (ix3 a r s) = ix3 (⟨t.val / 128, hlt⟩ : Fin 2) r s :=
    funext fun d => Fin.ext (by
      match d with
      | ⟨0, _⟩ => show win0_2.index t 0 * 1 + 1 * a.val = t.val / 128; rw [hi.1]; have := a.isLt; omega
      | ⟨1, _⟩ => show win0_2.index t 1 * 129 + 1 * r.val = r.val; rw [hi.2.1]; omega
      | ⟨2, _⟩ => show win0_2.index t 2 * 2048 + 1 * s.val = s.val; rw [hi.2.2]; omega)
  show (dats m 0 c).after 2 t ((cfg0.win 2).xinj (grid0.coords t) (ix3 a r s))
    = halves m c (((cfg0.win 2).blk t).view.emb (ix3 a r s))
  rw [e1, e2, after0_2, block_after m c t.val t.isLt r s, halves_apply]
  have e3 : t.val + 1 = 128 * (t.val / 128) + 128 := by omega
  rw [e3]

/-- The two flushing points' blocks cover the array. -/
theorem cover (c : Dev nD) (i : S2x129x2048.Idx) :
    ∃ t : Fin cfg0.N, (cfg0.win 2).flush t = true ∧ i ∈ ((cfg0.win 2).blk t).view.set := by
  have hN : cfg0.N = 256 := N_0
  have h0 : (i 0 : Nat) < 2 := (i 0).isLt
  have h1 : (i 1 : Nat) < 129 := (i 1).isLt
  have h2 : (i 2 : Nat) < 2048 := (i 2).isLt
  let t : Fin cfg0.N := ⟨128 * (i 0).val + 127, by omega⟩
  have hi := out_index t
  have hx : ∀ t : Fin cfg0.N, win0_2.xsize (grid0.coords t) 0 = 1 ∧ win0_2.xsize (grid0.coords t) 1 = 129 ∧ win0_2.xsize (grid0.coords t) 2 = 2048 :=
    (by decide +kernel : ∀ t : Fin grid0.N, win0_2.xsize (grid0.coords t) 0 = 1 ∧ win0_2.xsize (grid0.coords t) 1 = 129 ∧ win0_2.xsize (grid0.coords t) 2 = 2048)
  refine ⟨t, (flush0_2 t).mpr (by show (128 * (i 0).val + 127) % 128 = 127; omega), ?_⟩
  show i ∈ ((View.whole main_v6).slice (win0_2.rect t)).set
  rw [View.set_slice_whole, Rect.mem_set_unit]
  intro a
  have ht : t.val / 128 = (i 0).val := by show (128 * (i 0).val + 127) / 128 = (i 0).val; omega
  match a with
  | ⟨0, _⟩ =>
    show win0_2.index t 0 * win0_2.size 0 ≤ (i 0 : Nat) ∧ (i 0 : Nat) < win0_2.index t 0 * win0_2.size 0 + win0_2.xsize (grid0.coords t) 0
    rw [hi.1, (hx t).1, ht, show win0_2.size 0 = 1 from rfl]; omega
  | ⟨1, _⟩ =>
    show win0_2.index t 1 * win0_2.size 1 ≤ (i 1 : Nat) ∧ (i 1 : Nat) < win0_2.index t 1 * win0_2.size 1 + win0_2.xsize (grid0.coords t) 1
    rw [hi.2.1, (hx t).2.1]; omega
  | ⟨2, _⟩ =>
    show win0_2.index t 2 * win0_2.size 2 ≤ (i 2 : Nat) ∧ (i 2 : Nat) < win0_2.index t 2 * win0_2.size 2 + win0_2.xsize (grid0.coords t) 2
    rw [hi.2.2, (hx t).2.2]; omega

/-- So the accumulator array ends at `halves`. -/
theorem final (c : Dev nD) : (dats m 0 c).arrAt 2 cfg0.N = halves m c :=
  (dats m 0 c).arrAt_eq_of_cover 2 (halves m c) (flushed_eq m c) (cover c)

end Cert.KernelIdeal.Accum

end
-- ==== Proof.KernelRun.lean ====
/-
  The kernel program's run, read at its result.

  Every weakly fair execution of the kernel program ends with the accumulator array at `halves`, the result
  buffer at the host tail of that array, and the two arguments unchanged.
-/
import proofs.«413109_j27453430956391_3_alg».proof.Proof.KernelArray

set_option maxRecDepth 16384

noncomputable section

namespace Cert.KernelIdeal.Accum

open Idealize.ShloMosaic Idealize.ShloMosaic.TcCoe Idealize.ShloMosaic.ValueIdx Idealize.SL.Sem
open Idealize.ShloMosaic.Tactic Idealize.ShloMosaic.StableHlo
open Idealize.ShloMosaic.Pipeline (Dat)
open Cert.KernelIdeal Cert.KernelIdeal.Gen SegVariance

variable (m : (ℓ : Loc nD τ sig) → Buf (Elt Ideal) ℓ) (ρ : Dev nD → PrngReg)

set_option maxHeartbeats 4000000 in
/-- The operations after the region leave, in the result buffer, the host tail of the accumulator array. -/
theorem tail_eq (c : Dev nD) :
    Pipeline.afterTail₀ cfgs (dats m) 0 (V0 m) [hostOps1, hostOps1_1, hostOps1_2] c main_v31
      = Tail.ktail ((dats m 0 c).arrAt 2 cfg0.N) := by
  have hw : Pipeline.withArrays (cfgs 0).spec c (V0 m c) (fun w => (dats m 0 c).arrAt w (cfgs 0).N) (Proc.devRef .tc main_v6)
      = (dats m 0 c).arrAt 2 cfg0.N :=
    Pipeline.withArrays_arr spec0 launch0.win.arr_inj c _ _ 2
  unfold Pipeline.afterTail₀
  simp only [hostOps1, hostOps1_1, hostOps1_2, List.flatten_cons, List.flatten_nil, List.append_nil, List.cons_append,
    List.nil_append]
  after_results
  rw [hw]
  rfl

/-- The run: the result at the host tail of `halves`, the arguments unchanged. -/
theorem run : θ_run defs (onTc (τ := τ) (main (F := Ideal))) ⟨m, fun _ => 0, ρ⟩ (fun r => ∀ c : Dev nD,
      r.2.mem ((c.tc : Thread nD τ).loc main_v31) = Tail.ktail (halves m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v31 (Pipeline.mem_restRefs_of main_v31 (by decide) (by decide))).trans
        ((tail_eq m c).trans (congrArg Tail.ktail (final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Accum

end
-- ==== Proof.KernelStats.lean ====
/-
  The accumulator array's rows, the two halves added, are the specification's statistics.

  Half h of the array sums the contributions of tiles 128·h … 128·h + 127, tile t those of pixels 4096·t …
  4096·t + 4095; the 256 tiles partition the 1,048,576 pixels, so the two halves together sum every pixel's term
  once. A pixel's term in row r is row r's value at the pixel — a channel, its square, or one — times the one-hot
  entry of its word, which is that value when the word names the segment and zero otherwise: the three groups of
  rows are the channel sums, the sums of squares and the counts.
-/
import proofs.«413109_j27453430956391_3_alg».proof.Proof.KernelArray

noncomputable section

namespace Cert.KernelIdeal.Accum

open Idealize.ShloMosaic Idealize.ShloMosaic.TcCoe Idealize.ShloMosaic.ValueIdx Idealize.SL.Sem
open Cert.KernelIdeal Cert.KernelIdeal.Gen SegVariance

variable (m : (ℓ : Loc nD τ sig) → Buf (Elt Ideal) ℓ)

/-- The kernel's pixels, and its words read one per pixel off the column. -/
abbrev kerPixels (c : Dev nD) : SX.Idx → EReal := pixArr m c
def kerWords (c : Dev nD) : SI.Idx → BitVec 32 := fun j => wordArr m c (ix2 (j 0) (0 : Fin 1))

/-- Tiles of 4096 consecutive naturals, k of them, are the naturals below 4096·k. -/
theorem tiles_sum (f : ℕ → EReal) : ∀ k : ℕ,
    ∑ t ∈ Finset.range k, ∑ q ∈ Finset.range 4096, f (t * 4096 + q) = ∑ p ∈ Finset.range (k * 4096), f p
  | 0 => by simp
  | k + 1 => by
    rw [Finset.sum_range_succ, tiles_sum f k, Nat.succ_mul, Finset.sum_range_add]

/-- The two halves together: every pixel's term once. -/
theorem halves_total (c : Dev nD) (r : Fin 129) (s : Fin 2048) :
    zeroW + ∑ h : Fin 2, halves m c (ix3 h r s)
      = ∑ p : Fin 1048576, stackRow (fun ch : Fin 64 => pixArr m c (ix2 ch p)) r * hot (wordArr m c (ix2 p (0 : Fin 1))) s := by
  rw [show (zeroW : EReal) = 0 from Ideal.ofBits_zero_f32, zero_add, Fin.sum_univ_two, halves_apply, halves_apply]
  show ∑ t ∈ Finset.Ico 0 128, tileTerm m c r s t + ∑ t ∈ Finset.Ico 128 256, tileTerm m c r s t = _
  rw [Finset.sum_Ico_consecutive _ (by norm_num) (by norm_num), Nat.Ico_zero_eq_range]
  unfold tileTerm
  rw [tiles_sum (pixTerm m c r s) 256]
  show ∑ p ∈ Finset.range 1048576, pixTerm m c r s p = _
  rw [← Fin.sum_univ_eq_sum_range (pixTerm m c r s) 1048576]
  refine Finset.sum_congr rfl fun p _ => ?_
  unfold pixTerm
  rw [dif_pos p.isLt]

/-- A value times a one-hot entry: the value where the word names the segment, zero elsewhere. -/
theorem mul_hot (x : EReal) (w : BitVec 32) (s : Fin 2048) : x * hot w s = if names w s then x else 0 := by
  unfold hot
  split
  · rw [mul_one]
  · rw [mul_zero]

/-- Rows 0 … 63: the channel sums. -/
theorem rows_sum (c : Dev nD) (ch : Fin 64) (s : Fin 2048) :
    zeroW + ∑ h : Fin 2, halves m c (ix3 h (rowSum ch) s) = segSum (kerPixels m c) (kerWords m c) ch s := by
  rw [halves_total]
  unfold segSum
  refine Finset.sum_congr rfl fun p _ => ?_
  rw [mul_hot]
  have e : stackRow (fun ch : Fin 64 => pixArr m c (ix2 ch p)) (rowSum ch) = pixArr m c (ix2 ch p) := by
    unfold stackRow
    rw [dif_pos (show (rowSum ch).val < 64 from ch.isLt)]
  rw [e]
  rfl

/-- Rows 64 … 127: the sums of squares. -/
theorem rows_sq (c : Dev nD) (ch : Fin 64) (s : Fin 2048) :
    zeroW + ∑ h : Fin 2, halves m c (ix3 h (rowSq ch) s) = segSq (kerPixels m c) (kerWords m c) ch s := by
  rw [halves_total]
  unfold segSq
  refine Finset.sum_congr rfl fun p _ => ?_
  rw [mul_hot]
  have e : stackRow (fun ch : Fin 64 => pixArr m c (ix2 ch p)) (rowSq ch)
      = pixArr m c (ix2 ch p) * pixArr m c (ix2 ch p) := by
    unfold stackRow
    have h1 : ¬(rowSq ch).val < 64 := by show ¬(64 + ch.val < 64); omega
    have h2 : (rowSq ch).val < 128 := by show 64 + ch.val < 128; have := ch.isLt; omega
    rw [dif_neg h1, dif_pos h2]
    have e3 : (⟨(rowSq ch).val - 64, by omega⟩ : Fin 64) = ch := Fin.ext (by show 64 + ch.val - 64 = ch.val; omega)
    rw [e3]
  rw [e]
  rfl

/-- Row 128: the counts. -/
theorem rows_cnt (c : Dev nD) (s : Fin 2048) :
    zeroW + ∑ h : Fin 2, halves m c (ix3 h rowCnt s) = segCnt (kerWords m c) s := by
  rw [halves_total]
  unfold segCnt
  refine Finset.sum_congr rfl fun p _ => ?_
  rw [mul_hot]
  have e : stackRow (fun ch : Fin 64 => pixArr m c (ix2 ch p)) rowCnt = 1 := by
    unfold stackRow
    rw [dif_neg (show ¬(rowCnt.val < 64) by decide), dif_neg (show ¬(rowCnt.val < 128) by decide)]
  rw [e]
  rfl

/-- The kernel's host tail on the accumulator array is the loss of the kernel's pixels and words. -/
theorem tail_halves (c : Dev nD) :
    Tail.ktail (halves m c) = fun _ => loss (segSum (kerPixels m c) (kerWords m c)) (segSq (kerPixels m c) (kerWords m c))
      (segCnt (kerWords m c)) := by
  rw [Tail.ktail_loss]
  funext _
  exact congr (congr (congrArg loss (funext fun ch => funext fun s => rows_sum m c ch s))
    (funext fun ch => funext fun s => rows_sq m c ch s)) (funext fun s => rows_cnt m c s)

end Cert.KernelIdeal.Accum

end
-- ==== Proof.RefWords.lean ====
/-
  The reference's two reshaped inputs, named: batch 0 of the features as channels by pixels, and batch 0 of the
  segment words, one per pixel.
-/
import proofs.«413109_j27453430956391_3_alg».proof.Proof.RefRunP
import proofs.«413109_j27453430956391_3_alg».proof.Proof.RefReadP
import proofs.«413109_j27453430956391_3_alg».proof.Proof.SegSpec
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefStages

open Idealize.ShloMosaic Idealize.ShloMosaic.ValueIdx SegVariance Cert.ReferenceIdeal

/-- Batch 0 of the features as channels by pixels: the reference's reshaped slice. -/
def refPixels (a1 : (⟨S2x64x1024x1024, .f32⟩ : BufTy).Contents (Elt Ideal)) : SX.Idx → EReal :=
  ReadP.val_main_v5 (F := Ideal) a1

/-- Batch 0 of the segment words, one per pixel: the reference's reshaped slice. -/
def refWords (a0 : (⟨S2x1024x1024, .i32⟩ : BufTy).Contents (Elt Ideal)) : SI.Idx → BitVec 32 :=
  ReadP.val_main_v2 (F := Ideal) a0

end Cert.ReferenceIdeal.RefStages

end
-- ==== Proof.RefScatter.lean ====
/-
  The reference's three accumulating scatters are the specification's statistics.

  Update (p, c) of the 1,048,576 × 64 updates lands on row `start` of the 2,048 × 64 operand, column c, where
  `start` is pixel p's segment word read as a signed integer; an update whose row falls outside 0 … 2047 is
  dropped. The operand is zero. So entry (s, c) of the result is the sum, over the pixels whose word names s, of
  the update's entry (p, c): the channel sum, the sum of squares, and (for the rank-1 scatter of ones) the count.
-/
import proofs.«413109_j27453430956391_3_alg».proof.Proof.RefWords

noncomputable section

namespace Cert.ReferenceIdeal.RefStages

open Idealize.ShloMosaic Idealize.ShloMosaic.ValueIdx SegVariance Cert.ReferenceIdeal

/-! ## The rank-2 scatter's dimension numbers: window axis 1 of the updates, operand axis 0 inserted and indexed -/

/-- The dimension numbers of the two rank-2 scatters. -/
private abbrev D2 := scatter_S2048x64_S1048576x1_S1048576x64_1_0_0_1
/-- The dimension numbers of the rank-1 scatter. -/
private abbrev D1 := scatter_S2048_S1048576x1_S1048576_n_0_0_1

/-- Update (p, c) reads its one start component at scatter index (p, 0). -/
private theorem d2_siIdx (p : Fin 1048576) (c : Fin 64) (h : 0 < D2.scatterDimsToOperandDims.length) :
    D2.siIdx (ix2 p c) ⟨0, h⟩ = ix2 p (0 : Fin 1) := by
  funext b; refine Fin.ext ?_
  match b with
  | ⟨0, _⟩ => rfl
  | ⟨1, _⟩ => rfl

/-- On operand axis 0 the window of update (p, c) starts at the word at (p, 0), read signed. -/
private theorem d2_start0 {w : Nat} (idx : IVec S1048576x1 w) (p : Fin 1048576) (c : Fin 64) :
    D2.start (ix2 p c) idx 0 = (idx (ix2 p (0 : Fin 1))).toInt := by
  unfold ScatterDims.start
  rw [dif_pos (show (0 : Fin 2) ∈ D2.scatterDimsToOperandDims from List.mem_singleton.mpr rfl)]
  have := d2_siIdx p c (by decide)
  rw [← this]
  rfl

/-- Operand axis 1 is not indexed: the start there is 0. -/
private theorem d2_start1 {w : Nat} (idx : IVec S1048576x1 w) (p : Fin 1048576) (c : Fin 64) :
    D2.start (ix2 p c) idx 1 = 0 := by
  unfold ScatterDims.start
  rw [dif_neg (show ¬ (1 : Fin 2) ∈ D2.scatterDimsToOperandDims by decide)]

/-- Operand axis 0 is an inserted window axis: the window coordinate there is 0. -/
private theorem d2_window0 (p : Fin 1048576) (c : Fin 64) : D2.window (ix2 p c) 0 = 0 := by
  unfold ScatterDims.window
  rw [dif_neg (show ¬ (0 : Fin 2) ∈ D2.sKept by decide)]

/-- Operand axis 1 takes the update's window coordinate c. -/
private theorem d2_window1 (p : Fin 1048576) (c : Fin 64) : D2.window (ix2 p c) 1 = c.val := by
  unfold ScatterDims.window
  rw [dif_pos (show (1 : Fin 2) ∈ D2.sKept by decide)]
  rfl

/-- Update (p, c) lands on entry (s, c') exactly when pixel p's word names s and c = c'. -/
private theorem d2_resultIdx {w : Nat} (idx : IVec S1048576x1 w) (p : Fin 1048576) (c c' : Fin 64) (s : Fin 2048) :
    D2.resultIdx? (ix2 p c) idx = some (ix2 s c') ↔ (idx (ix2 p (0 : Fin 1))).toInt = (s.val : ℤ) ∧ c = c' := by
  have hs0 := d2_start0 idx p c
  have hs1 := d2_start1 idx p c
  have hw0 := d2_window0 p c
  have hw1 := d2_window1 p c
  have hs := s.isLt
  have hc := c.isLt
  unfold ScatterDims.resultIdx?
  split_ifs with h
  · constructor
    · intro hf
      have hf' := Option.some.inj hf
      have e0 : (D2.start (ix2 p c) idx 0 + (D2.window (ix2 p c) 0 : ℤ)).toNat = s.val :=
        congrArg (fun f => (f 0).val) hf'
      have e1 : (D2.start (ix2 p c) idx 1 + (D2.window (ix2 p c) 1 : ℤ)).toNat = c'.val :=
        congrArg (fun f => (f 1).val) hf'
      have h0 := (h 0).1
      rw [hs0, hw0] at e0 h0
      rw [hs1, hw1] at e1
      exact ⟨by omega, Fin.ext (by omega)⟩
    · rintro ⟨e, rfl⟩
      congr 1
      funext a
      refine Fin.ext ?_
      match a with
      | ⟨0, _⟩ =>
        show (D2.start (ix2 p c) idx 0 + (D2.window (ix2 p c) 0 : ℤ)).toNat = s.val
        rw [hs0, hw0]; omega
      | ⟨1, _⟩ =>
        show (D2.start (ix2 p c) idx 1 + (D2.window (ix2 p c) 1 : ℤ)).toNat = c.val
        rw [hs1, hw1]; omega
  · constructor
    · intro hf; exact absurd hf (by simp)
    · rintro ⟨e, rfl⟩
      exfalso; apply h
      intro a
      match a with
      | ⟨0, _⟩ =>
        show 0 ≤ D2.start (ix2 p c) idx 0 + (D2.window (ix2 p c) 0 : ℤ) ∧
          D2.start (ix2 p c) idx 0 + (D2.window (ix2 p c) 0 : ℤ) < ((2048 : ℕ) : ℤ)
        rw [hs0, hw0]; omega
      | ⟨1, _⟩ =>
        show 0 ≤ D2.start (ix2 p c) idx 1 + (D2.window (ix2 p c) 1 : ℤ) ∧
          D2.start (ix2 p c) idx 1 + (D2.window (ix2 p c) 1 : ℤ) < ((64 : ℕ) : ℤ)
        rw [hs1, hw1]; omega

/-- Summing the updates that land on entry (s, c): the sum over all updates of "lands there ? update : 0" is a
    double sum over pixel and channel; at each pixel only channel c can land, and it does when the word names s. -/
private theorem d2_sum {w : Nat} (idx : IVec S1048576x1 w) (upd : S1048576x64.Idx → EReal) (s : Fin 2048) (c : Fin 64)
    [DecidablePred fun j : S1048576x64.Idx => D2.resultIdx? j idx = some (ix2 s c)] :
    ∑ j ∈ Finset.univ.filter (fun j : S1048576x64.Idx => D2.resultIdx? j idx = some (ix2 s c)), upd j
      = ∑ p : Fin 1048576, if (idx (ix2 p (0 : Fin 1))).toInt = (s.val : ℤ) then upd (ix2 p c) else 0 := by
  rw [Finset.sum_filter, sum_idx2]
  refine Finset.sum_congr rfl (fun p _ => ?_)
  have hterm : ∀ c' : Fin 64,
      (if D2.resultIdx? (ix2 p c') idx = some (ix2 s c) then upd (ix2 p c') else 0)
        = if c' = c then (if (idx (ix2 p (0 : Fin 1))).toInt = (s.val : ℤ) then upd (ix2 p c) else 0) else 0 := by
    intro c'
    by_cases h1 : c' = c
    · subst h1
      rw [if_pos rfl]
      by_cases h2 : (idx (ix2 p (0 : Fin 1))).toInt = (s.val : ℤ)
      · rw [if_pos h2, if_pos ((d2_resultIdx idx p c' c' s).2 ⟨h2, rfl⟩)]
      · rw [if_neg h2, if_neg (fun h => h2 ((d2_resultIdx idx p c' c' s).1 h).1)]
    · rw [if_neg h1, if_neg (fun h => h1 ((d2_resultIdx idx p c' c s).1 h).2)]
  rw [Finset.sum_congr rfl (fun c' _ => hterm c'), Finset.sum_ite_eq', if_pos (Finset.mem_univ c)]

/-- The rank-2 accumulating scatter read at (s, c): the operand there plus, over the pixels whose word names s,
    the update (p, c). -/
private theorem scatterAdd2_apply {w : Nat} (x : FVec Ideal S2048x64 .f32) (idx : IVec S1048576x1 w)
    (upd : FVec Ideal S1048576x64 .f32) (s : Fin 2048) (c : Fin 64) :
    Host.scatterAdd D2 x idx upd (ix2 s c)
      = x (ix2 s c) + ∑ p : Fin 1048576, if (idx (ix2 p (0 : Fin 1))).toInt = (s.val : ℤ) then upd (ix2 p c) else 0 := by
  unfold Host.scatterAdd
  rw [Ideal.hostScatterAdd_def]
  unfold Ideal.hostScatterAdd
  rw [d2_sum]

/-! ## The rank-1 scatter's dimension numbers: no window axis, operand axis 0 inserted and indexed -/

/-- Update p reads its one start component at scatter index (p, 0). -/
private theorem d1_siIdx (p : Fin 1048576) (h : 0 < D1.scatterDimsToOperandDims.length) :
    D1.siIdx (ix1 p) ⟨0, h⟩ = ix2 p (0 : Fin 1) := by
  funext b; refine Fin.ext ?_
  match b with
  | ⟨0, _⟩ => rfl
  | ⟨1, _⟩ => rfl

/-- The window of update p starts at the word at (p, 0), read signed. -/
private theorem d1_start0 {w : Nat} (idx : IVec S1048576x1 w) (p : Fin 1048576) :
    D1.start (ix1 p) idx 0 = (idx (ix2 p (0 : Fin 1))).toInt := by
  unfold ScatterDims.start
  rw [dif_pos (show (0 : Fin 1) ∈ D1.scatterDimsToOperandDims from List.mem_singleton.mpr rfl)]
  have := d1_siIdx p (by decide)
  rw [← this]
  rfl

/-- The operand's one axis is an inserted window axis: the window coordinate is 0. -/
private theorem d1_window0 (p : Fin 1048576) : D1.window (ix1 p) 0 = 0 := by
  unfold ScatterDims.window
  rw [dif_neg (show ¬ (0 : Fin 1) ∈ D1.sKept by decide)]

/-- Update p lands on entry s exactly when pixel p's word names s. -/
private theorem d1_resultIdx {w : Nat} (idx : IVec S1048576x1 w) (p : Fin 1048576) (s : Fin 2048) :
    D1.resultIdx? (ix1 p) idx = some (ix1 s) ↔ (idx (ix2 p (0 : Fin 1))).toInt = (s.val : ℤ) := by
  have hs0 := d1_start0 idx p
  have hw0 := d1_window0 p
  have hs := s.isLt
  unfold ScatterDims.resultIdx?
  split_ifs with h
  · constructor
    · intro hf
      have hf' := Option.some.inj hf
      have e0 : (D1.start (ix1 p) idx 0 + (D1.window (ix1 p) 0 : ℤ)).toNat = s.val :=
        congrArg (fun f => (f 0).val) hf'
      have h0 := (h 0).1
      rw [hs0, hw0] at e0 h0
      omega
    · intro e
      congr 1
      funext a
      refine Fin.ext ?_
      match a with
      | ⟨0, _⟩ =>
        show (D1.start (ix1 p) idx 0 + (D1.window (ix1 p) 0 : ℤ)).toNat = s.val
        rw [hs0, hw0]; omega
  · constructor
    · intro hf; exact absurd hf (by simp)
    · intro e
      exfalso; apply h
      intro a
      match a with
      | ⟨0, _⟩ =>
        show 0 ≤ D1.start (ix1 p) idx 0 + (D1.window (ix1 p) 0 : ℤ) ∧
          D1.start (ix1 p) idx 0 + (D1.window (ix1 p) 0 : ℤ) < ((2048 : ℕ) : ℤ)
        rw [hs0, hw0]; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _
    (fun j => congrArg f (eq_ix1 j))

/-- One update's term: "lands on s ? update : 0" is "word names s ? update : 0". -/
private theorem d1_term {w : Nat} (idx : IVec S1048576x1 w) (upd : S1048576.Idx → EReal) (s : Fin 2048)
    [DecidablePred fun j : S1048576.Idx => D1.resultIdx? j idx = some (ix1 s)] (p : Fin 1048576) :
    (if D1.resultIdx? (ix1 p) idx = some (ix1 s) then upd (ix1 p) else 0)
      = if (idx (ix2 p (0 : Fin 1))).toInt = (s.val : ℤ) then upd (ix1 p) else 0 := by
  by_cases h2 : (idx (ix2 p (0 : Fin 1))).toInt = (s.val : ℤ)
  · rw [if_pos h2, if_pos ((d1_resultIdx idx p s).2 h2)]
  · rw [if_neg h2, if_neg (fun h => h2 ((d1_resultIdx idx p s).1 h))]

/-- Summing the updates that land on entry s: one per pixel whose word names s. -/
private theorem d1_sum {w : Nat} (idx : IVec S1048576x1 w) (upd : S1048576.Idx → EReal) (s : Fin 2048)
    [DecidablePred fun j : S1048576.Idx => D1.resultIdx? j idx = some (ix1 s)] :
    ∑ j ∈ Finset.univ.filter (fun j : S1048576.Idx => D1.resultIdx? j idx = some (ix1 s)), upd j
      = ∑ p : Fin 1048576, if (idx (ix2 p (0 : Fin 1))).toInt = (s.val : ℤ) then upd (ix1 p) else 0 := by
  rw [Finset.sum_filter, sum_idx1']
  exact Finset.sum_congr rfl (fun p _ => d1_term idx upd s p)

/-- The rank-1 accumulating scatter read at s: the operand there plus, over the pixels whose word names s, the
    update p. -/
private theorem scatterAdd1_apply {w : Nat} (x : FVec Ideal S2048 .f32) (idx : IVec S1048576x1 w)
    (upd : FVec Ideal S1048576 .f32) (s : Fin 2048) :
    Host.scatterAdd D1 x idx upd (ix1 s)
      = x (ix1 s) + ∑ p : Fin 1048576, if (idx (ix2 p (0 : Fin 1))).toInt = (s.val : ℤ) then upd (ix1 p) else 0 := by
  unfold Host.scatterAdd
  rw [Ideal.hostScatterAdd_def]
  unfold Ideal.hostScatterAdd
  rw [d1_sum]

/-! ## The operands read at an index -/

/-- The float word 0x3F800000 reads as one. -/
private theorem one_word : Ideal.ofBits .f32 0x3F800000#32 = 1 := IdealRules.sign_bit.ideal_onePat .f32

/-- The broadcast words at (p, 0): pixel p's word. -/
private theorem words_at (y : S1048576.Idx → BitVec 32) (p : Fin 1048576) :
    y (ReadP.idx_main_v8 (ix2 p (0 : Fin 1))) = y (ix1 p) := by
  congr 1
  funext a
  match a with
  | ⟨0, _⟩ => rfl

/-- The transposed pixels at (p, c): channel c of pixel p. -/
private theorem pixels_at (a1 : (⟨S2x64x1024x1024, .f32⟩ : BufTy).Contents (Elt Ideal)) (p : Fin 1048576) (c : Fin 64) :
    ReadP.val_main_v6 (F := Ideal) a1 (ix2 p c) = refPixels a1 (ix2 c p) := by
  rw [ReadP.val_main_v6_apply]
  unfold refPixels
  congr 1
  funext a
  match a with
  | ⟨0, _⟩ => rfl
  | ⟨1, _⟩ => rfl

/-! ## The three scatters -/

/-- The first scatter's result, entry (s, c): channel c summed over segment s. -/
theorem scatter_sum (a0 : (⟨S2x1024x1024, .i32⟩ : BufTy).Contents (Elt Ideal))
    (a1 : (⟨S2x64x1024x1024, .f32⟩ : BufTy).Contents (Elt Ideal)) (s : Fin 2048) (c : Fin 64) :
    ReadP.val_main_v9 (F := Ideal) a0 a1 (ix2 s c) = segSum (refPixels a1) (refWords a0) c s := by
  refine (scatterAdd2_apply (ReadP.val_main_v7 (F := Ideal)) (ReadP.val_main_v8 (F := Ideal) a0)
    (ReadP.val_main_v6 (F := Ideal) a1) s c).trans ?_
  have hx : ReadP.val_main_v7 (F := Ideal) (ix2 s c) = 0 := by
    rw [ReadP.val_main_v7_apply, ReadP.val_main_cst_apply]; exact Ideal.ofBits_zero_f32
  rw [hx, zero_add]
  unfold segSum
  refine Finset.sum_congr rfl (fun p _ => ?_)
  have hw : ReadP.val_main_v8 (F := Ideal) a0 (ix2 p (0 : Fin 1)) = refWords a0 (ix1 p) := by
    rw [ReadP.val_main_v8_apply]; exact words_at _ p
  rw [hw, pixels_at]

/-- The second scatter's result, entry (s, c): channel c's squares summed over segment s. -/
theorem scatter_sq (a0 : (⟨S2x1024x1024, .i32⟩ : BufTy).Contents (Elt Ideal))
    (a1 : (⟨S2x64x1024x1024, .f32⟩ : BufTy).Contents (Elt Ideal)) (s : Fin 2048) (c : Fin 64) :
    ReadP.val_main_v13 (F := Ideal) a0 a1 (ix2 s c) = segSq (refPixels a1) (refWords a0) c s := by
  refine (scatterAdd2_apply (ReadP.val_main_v11 (F := Ideal)) (ReadP.val_main_v12 (F := Ideal) a0)
    (ReadP.val_main_v10 (F := Ideal) a1) s c).trans ?_
  have hx : ReadP.val_main_v11 (F := Ideal) (ix2 s c) = 0 := by
    rw [ReadP.val_main_v11_apply, ReadP.val_main_cst_0_apply]; exact Ideal.ofBits_zero_f32
  rw [hx, zero_add]
  unfold segSq
  refine Finset.sum_congr rfl (fun p _ => ?_)
  have hw : ReadP.val_main_v12 (F := Ideal) a0 (ix2 p (0 : Fin 1)) = refWords a0 (ix1 p) := by
    rw [ReadP.val_main_v12_apply]; exact words_at _ p
  have hu : ReadP.val_main_v10 (F := Ideal) a1 (ix2 p c) = refPixels a1 (ix2 c p) * refPixels a1 (ix2 c p) := by
    rw [← pixels_at]; rfl
  rw [hw, hu]

/-- The third scatter's result, entry s: how many pixels segment s has. -/
theorem scatter_cnt (a0 : (⟨S2x1024x1024, .i32⟩ : BufTy).Contents (Elt Ideal)) (s : Fin 2048) :
    ReadP.val_main_v17 (F := Ideal) a0 (ix1 s) = segCnt (refWords a0) s := by
  refine (scatterAdd1_apply (ReadP.val_main_v15 (F := Ideal)) (ReadP.val_main_v16 (F := Ideal) a0)
    (ReadP.val_main_v14 (F := Ideal)) s).trans ?_
  have hx : ReadP.val_main_v15 (F := Ideal) (ix1 s) = 0 := by
    rw [ReadP.val_main_v15_apply, ReadP.val_main_cst_2_apply]; exact Ideal.ofBits_zero_f32
  rw [hx, zero_add]
  unfold segCnt
  refine Finset.sum_congr rfl (fun p _ => ?_)
  have hw : ReadP.val_main_v16 (F := Ideal) a0 (ix2 p (0 : Fin 1)) = refWords a0 (ix1 p) := by
    rw [ReadP.val_main_v16_apply]; exact words_at _ p
  have hu : ReadP.val_main_v14 (F := Ideal) (ix1 p) = 1 := by
    rw [ReadP.val_main_v14_apply, ReadP.val_main_cst_1_apply]; exact one_word
  rw [hw, hu]

end Cert.ReferenceIdeal.RefStages

end
-- ==== Proof.RefTail.lean ====
/-
  The reference's operations after its three scatters are the specification's loss.

  With the three scatter results read as statistics — entry (s, c) of the first two as channel c of segment s,
  entry s of the third as segment s's count — every later operation of the reference is, entry by entry, the
  corresponding step of `loss`: the maximum with one, the quotient, the difference, the sum over channels, the
  quotient by 64 · n, the mask, the sum over segments, and the count of occupied segments, which the reference
  takes as an integer sum of zeros and ones converted to a float.
-/
import proofs.«413109_j27453430956391_3_alg».proof.Proof.RefWords
import Idealize.ShloMosaic.Lib.ValueIdxRank1
import Idealize.ShloMosaic.Lib.StableHlo.Predicate

noncomputable section

namespace Cert.ReferenceIdeal.RefStages

open Idealize.ShloMosaic Idealize.ShloMosaic.ValueIdx SegVariance Cert.ReferenceIdeal

/-- A sum over a rank-1 index set is the sum over its coordinate. -/
theorem tail_sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A natural count of the members of a finite set with a property, read at the extended reals, is the sum of ones. -/
theorem tail_coe_count {ι : Type*} (S : Finset ι) (p : ι → Prop) [DecidablePred p] :
    (((∑ i ∈ S, if p i then 1 else 0 : ℕ) : ℝ) : EReal) = ∑ i ∈ S, if p i then (1 : EReal) else 0 := by
  induction S using Finset.cons_induction with
  | empty => simp
  | cons a S ha ih =>
    rw [Finset.sum_cons, Finset.sum_cons, Nat.cast_add, EReal.coe_add, ih]
    by_cases h : p a
    · rw [if_pos h, if_pos h]; simp
    · rw [if_neg h, if_neg h]; simp

/-- The 32-bit sum of 2,048 widened bits, read signed and converted, is the number of set bits. -/
theorem tail_count_bits (b : IVec S2048 1) (hw : 1 < 32) (h : S2048.ReducesTo [0] S_) (hu : 0 < S_.numel) (j : S_.Idx) :
    (((Host.reduce IntOp.addi (extui 32 b hw) (constantI S_ 32 0#32) h hu j).toInt : ℝ) : EReal)
      = ∑ s : Fin 2048, if b (ix1 s) = 1#1 then (1 : EReal) else 0 := by
  classical
  -- every index of the operand drops to the one index of the scalar result
  have hall : (Finset.univ.filter fun i : S2048.Idx => h.drop i = j) = Finset.univ :=
    Finset.filter_true_of_mem fun i _ => Subsingleton.elim _ _
  have hval : ∀ i, (extui 32 b hw i).toNat = if b i = 1#1 then 1 else 0 :=
    fun i => StableHlo.Predicate.toNat_setWidth_bit (b i)
  -- at most 2,048 ones: the word sum does not wrap
  have hle : ∑ i : S2048.Idx, (extui 32 b hw i).toNat ≤ 2048 := by
    calc ∑ i : S2048.Idx, (extui 32 b hw i).toNat ≤ ∑ _i : S2048.Idx, 1 :=
          Finset.sum_le_sum fun i _ => by rw [hval]; split <;> omega
      _ = 2048 := by rw [tail_sum_idx1]; simp
  have hnat : (Host.reduce IntOp.addi (extui 32 b hw) (constantI S_ 32 0#32) h hu j).toNat
      = ∑ i : S2048.Idx, if b i = 1#1 then 1 else 0 := by
    rw [Host.reduce_eq_fold, hall]
    show (Finset.fold IntOp.addi 0#32 (extui 32 b hw) Finset.univ).toNat = _
    rw [StableHlo.Predicate.toNat_fold_addi _ _ (by omega)]
    exact Finset.sum_congr rfl fun i _ => hval i
  have hint : (Host.reduce IntOp.addi (extui 32 b hw) (constantI S_ 32 0#32) h hu j).toInt
      = ((∑ i : S2048.Idx, if b i = 1#1 then 1 else 0 : ℕ) : ℤ) := by
    rw [StableHlo.Predicate.toInt_eq_toNat_of_lt (by rw [hnat]; simp only [hval] at hle; omega), hnat]
  rw [hint, Int.cast_natCast, tail_coe_count, tail_sum_idx1]

/-- The first maximum at segment s: the count or one. -/
theorem tail_v19_at (a0 : (⟨S2x1024x1024, .i32⟩ : BufTy).Contents (Elt Ideal)) (s : Fin 2048) :
    ReadP.val_main_v19 (F := Ideal) a0 (ix1 s) = max (ReadP.val_main_v17 (F := Ideal) a0 (ix1 s)) oneW := by
  rw [ReadP.val_main_v19_apply, ReadP.val_main_v18_apply]
  rfl

/-- The maximum broadcast along the channels reads, at (s, c), the maximum at s. -/
theorem tail_v22_at (a0 : (⟨S2x1024x1024, .i32⟩ : BufTy).Contents (Elt Ideal)) (s : Fin 2048) (c : Fin 64) :
    ReadP.val_main_v22 (F := Ideal) a0 (ix2 s c) = max (ReadP.val_main_v17 (F := Ideal) a0 (ix1 s)) oneW := by
  have hidx : ReadP.idx_main_v20 (ReadP.idx_main_v22 (ix2 s c)) = ix1 s := by
    funext a; match a with | ⟨0, _⟩ => rfl
  rw [ReadP.val_main_v22_apply, ReadP.val_main_v20_apply, hidx]
  exact tail_v19_at a0 s

/-- The difference at (s, c): the sum of squares less the squared sum over n. -/
theorem tail_v24_at (a0 : (⟨S2x1024x1024, .i32⟩ : BufTy).Contents (Elt Ideal))
    (a1 : (⟨S2x64x1024x1024, .f32⟩ : BufTy).Contents (Elt Ideal)) (s : Fin 2048) (c : Fin 64) :
    ReadP.val_main_v24 (F := Ideal) a0 a1 (ix2 s c)
      = ReadP.val_main_v13 (F := Ideal) a0 a1 (ix2 s c)
        - Ideal.div (ReadP.val_main_v9 (F := Ideal) a0 a1 (ix2 s c) * ReadP.val_main_v9 (F := Ideal) a0 a1 (ix2 s c))
            (max (ReadP.val_main_v17 (F := Ideal) a0 (ix1 s)) oneW) := by
  rw [ReadP.val_main_v24_apply, ReadP.val_main_v23_apply, ReadP.val_main_v21_apply, tail_v22_at]
  rfl

/-- The sum over the 64 channels at segment s, from the word zero. -/
theorem tail_v25_at (a0 : (⟨S2x1024x1024, .i32⟩ : BufTy).Contents (Elt Ideal))
    (a1 : (⟨S2x64x1024x1024, .f32⟩ : BufTy).Contents (Elt Ideal)) (s : Fin 2048) :
    ReadP.val_main_v25 (F := Ideal) a0 a1 (ix1 s)
      = zeroW + ∑ c : Fin 64, (ReadP.val_main_v13 (F := Ideal) a0 a1 (ix2 s c)
        - Ideal.div (ReadP.val_main_v9 (F := Ideal) a0 a1 (ix2 s c) * ReadP.val_main_v9 (F := Ideal) a0 a1 (ix2 s c))
            (max (ReadP.val_main_v17 (F := Ideal) a0 (ix1 s)) oneW)) := by
  rw [ReadP.val_main_v25_apply]
  refine congrArg (zeroW + ·) (Finset.sum_congr rfl fun c _ => ?_)
  have hidx : ReadP.idx_main_v25 (ix1 s) c = ix2 s c := by
    funext a; match a with | ⟨0, _⟩ => rfl | ⟨1, _⟩ => rfl
  rw [hidx]
  exact tail_v24_at a0 a1 s c

/-- The divisor at segment s: 64 · n, the second maximum being the first. -/
theorem tail_v29_at (a0 : (⟨S2x1024x1024, .i32⟩ : BufTy).Contents (Elt Ideal)) (s : Fin 2048) :
    ReadP.val_main_v29 (F := Ideal) a0 (ix1 s) = chanW * max (ReadP.val_main_v17 (F := Ideal) a0 (ix1 s)) oneW := by
  rw [ReadP.val_main_v29_apply, ReadP.val_main_v28_apply, ReadP.val_main_v27_apply, ReadP.val_main_v26_apply]
  rfl

/-- The masked quotient at segment s is the specification's masked term. -/
theorem tail_v33_at (a0 : (⟨S2x1024x1024, .i32⟩ : BufTy).Contents (Elt Ideal))
    (a1 : (⟨S2x64x1024x1024, .f32⟩ : BufTy).Contents (Elt Ideal)) (s : Fin 2048) :
    ReadP.val_main_v33 (F := Ideal) a0 a1 (ix1 s) = masked
      (fun c s => ReadP.val_main_v9 (F := Ideal) a0 a1 (ix2 s c))
      (fun c s => ReadP.val_main_v13 (F := Ideal) a0 a1 (ix2 s c))
      (fun s => ReadP.val_main_v17 (F := Ideal) a0 (ix1 s)) s := by
  rw [ReadP.val_main_v33_apply, ReadP.val_main_v32_apply, ReadP.val_main_v31_apply, ReadP.val_main_v30_apply,
    ReadP.val_main_call0_v1_apply, tail_v25_at, tail_v29_at]
  rfl

/-- The occupancy bit at segment s: the count compared with the word zero. -/
theorem tail_v36_at (a0 : (⟨S2x1024x1024, .i32⟩ : BufTy).Contents (Elt Ideal)) (s : Fin 2048) :
    ReadP.val_main_v36 (F := Ideal) a0 (ix1 s) = Ideal.cmp .ogt (ReadP.val_main_v17 (F := Ideal) a0 (ix1 s)) zeroW := by
  rw [ReadP.val_main_v36_apply, ReadP.val_main_v35_apply]
  rfl

/-- The reference's result from its three scatter results. -/
theorem tail_loss (a0 : (⟨S2x1024x1024, .i32⟩ : BufTy).Contents (Elt Ideal))
    (a1 : (⟨S2x64x1024x1024, .f32⟩ : BufTy).Contents (Elt Ideal)) :
    ReadP.val_main_v40 (F := Ideal) a0 a1 = fun _ => loss
      (fun c s => ReadP.val_main_v9 (F := Ideal) a0 a1 (ix2 s c))
      (fun c s => ReadP.val_main_v13 (F := Ideal) a0 a1 (ix2 s c))
      (fun s => ReadP.val_main_v17 (F := Ideal) a0 (ix1 s)) := by
  funext i
  have hA : ReadP.val_main_v34 (F := Ideal) a0 a1 i = zeroW + ∑ s : Fin 2048, masked
      (fun c s => ReadP.val_main_v9 (F := Ideal) a0 a1 (ix2 s c))
      (fun c s => ReadP.val_main_v13 (F := Ideal) a0 a1 (ix2 s c))
      (fun s => ReadP.val_main_v17 (F := Ideal) a0 (ix1 s)) s := by
    rw [ReadP.val_main_v34_apply, tail_sum_idx1]
    refine congrArg (zeroW + ·) (Finset.sum_congr rfl fun s _ => ?_)
    exact tail_v33_at a0 a1 s
  have hB : ReadP.val_main_v39 (F := Ideal) a0 i = occupied (fun s => ReadP.val_main_v17 (F := Ideal) a0 (ix1 s)) := by
    rw [ReadP.val_main_v39_apply]
    refine (tail_count_bits (ReadP.val_main_v36 (F := Ideal) a0) _ _ _ i).trans ?_
    refine Finset.sum_congr rfl fun s _ => ?_
    rw [tail_v36_at]
  rw [ReadP.val_main_v40_apply, hA, hB]
  rfl

end Cert.ReferenceIdeal.RefStages

end
-- ==== Proof.RefStages.lean ====
/-
  The reference program's result is the specification's loss.

  The reference takes batch 0 of both inputs, lays the pixels out as 1,048,576 rows of 64 channels, and adds each
  pixel's row (and its square, and a one) into the row of the segment its word names, by three accumulating
  scatters. Its three scatter results are the specification's statistics, transposed, and the operations after
  them are the specification's `loss` read with segments as rows and channels as columns.
-/
import proofs.«413109_j27453430956391_3_alg».proof.Proof.RefScatter
import proofs.«413109_j27453430956391_3_alg».proof.Proof.RefTail

noncomputable section

namespace Cert.ReferenceIdeal.RefStages

open Idealize.ShloMosaic Idealize.ShloMosaic.ValueIdx Idealize.ShloMosaic.TcCoe Idealize.SL.Sem
open Cert.ReferenceIdeal Cert.ReferenceIdeal.Gen SegVariance

/-- The reference's result is the loss of the statistics of its pixels and words. -/
theorem ref_loss (m : (ℓ : Loc nD τ sig) → Buf (Elt Ideal) ℓ) (c : Dev nD) :
    RunP.res_out0 (F := Ideal) m c = fun _ => loss
      (segSum (refPixels (m ((c.tc : Thread nD τ).loc main_arg1))) (refWords (m ((c.tc : Thread nD τ).loc main_arg0))))
      (segSq (refPixels (m ((c.tc : Thread nD τ).loc main_arg1))) (refWords (m ((c.tc : Thread nD τ).loc main_arg0))))
      (segCnt (refWords (m ((c.tc : Thread nD τ).loc main_arg0)))) := by
  show RunP.res_main_v40 (F := Ideal) m c = _
  rw [ReadP.val_main_v40_eq, tail_loss]
  simp only [scatter_sum, scatter_sq, scatter_cnt]
  rfl

end Cert.ReferenceIdeal.RefStages

end
-- ==== Proof.InputsAgree.lean ====
/-
  Both programs read the same pixels and the same words.

  Each program slices batch 0 out of the features and reshapes it to 64 channels by 1,048,576 pixels: the same
  three operations, so the same array. Each slices batch 0 out of the segment words and reshapes it, the
  reference to a vector of 1,048,576 words, the kernel to a column of 1,048,576 rows: entry p of the one and entry
  (p, 0) of the other are the same entry (p / 1024, p mod 1024) of the 1024 × 1024 slice.
-/
import proofs.«413109_j27453430956391_3_alg».proof.Proof.KernelStats
import proofs.«413109_j27453430956391_3_alg».proof.Proof.RefStages
import Idealize.ShloMosaic.Lib.StableHlo.Run

set_option maxRecDepth 16384

noncomputable section

namespace Cert.Proof.InputsAgree

open Idealize.ShloMosaic Idealize.ShloMosaic.TcCoe Idealize.ShloMosaic.ValueIdx Idealize.SL.Sem
open Idealize.ShloMosaic.Tactic Idealize.ShloMosaic.StableHlo
open SegVariance
open Cert.KernelIdeal Cert.KernelIdeal.Gen Cert.KernelIdeal.Accum

variable (m : (ℓ : Loc nD τ sig) → Buf (Elt Ideal) ℓ)

/-- The kernel's pixels are the reference's reshaped slice of the same features. -/
theorem pixels_eq (c : Dev nD) :
    kerPixels m c = Cert.ReferenceIdeal.RefStages.refPixels (m ((c.tc : Thread nD τ).loc main_arg1)) := by
  show StableHlo.after hostOps0 (fun b => m (c, b)) (Proc.devRef .tc main_v2) = _
  after_results
  rfl

/-- The kernel's word column, read one word per pixel, is the reference's word vector. -/
theorem words_eq (c : Dev nD) :
    kerWords m c = Cert.ReferenceIdeal.RefStages.refWords (m ((c.tc : Thread nD τ).loc main_arg0)) := by
  have e : (V m c main_v5 : S1048576x1.Idx → BitVec 32)
      = shapeCast S1048576x1 (Cert.ReferenceIdeal.ReadP.val_main_v1 (F := Ideal) (m ((c.tc : Thread nD τ).loc main_arg0)))
          Facts₀.shapeCasts_S1024x1024_S1048576x1 := by
    show StableHlo.after hostOps0 (fun b => m (c, b)) (Proc.devRef .tc main_v5) = _
    after_results
    rfl
  funext j
  obtain ⟨p, rfl⟩ : ∃ p : Fin 1048576, j = ix1 p := ⟨j 0, eq_ix1 j⟩
  show V m c main_v5 (ix2 p (0 : Fin 1)) = Cert.ReferenceIdeal.ReadP.val_main_v2 (F := Ideal) _ (ix1 p)
  rw [e, Cert.ReferenceIdeal.ReadP.val_main_v2_apply]
  exact shapeCast_apply _ _ (ix2 p (0 : Fin 1)) (Cert.ReferenceIdeal.ReadP.idx_main_v2 (ix1 p))
    (by rewrite [Shape.rowMajor_val_two, Shape.rowMajor_val_two]
        show p.val / 1024 * 1024 + p.val % 1024 = p.val * 1 + 0
        omega)

end Cert.Proof.InputsAgree

end
-- ==== Proof.lean ====
/-
  The certificate: the kernel and the reference compute the same loss.

  Both programs end, at the extended reals, at the specification's `loss` of the three per-segment statistics —
  pixel counts, channel sums and sums of squares over the pixels whose word names the segment — of the same pixels
  and the same words. The kernel reaches the statistics by a one-hot matrix product accumulated over 256 pixel
  tiles in two halves that the host adds; the reference by three accumulating scatters. A word outside 0 … 2047
  names no segment on either side: the kernel's one-hot row is then zero, and the scatter drops the update.
  Only commutativity and associativity of the extended reals' sum are used, so the precondition is never opened.
  The three frames are the programs' runs with the results dropped; no rewrite was made when the kernel was
  idealized, so there is nothing to preserve.
-/
import proofs.«413109_j27453430956391_3_alg».proof.Defs
import proofs.«413109_j27453430956391_3_alg».proof.Proof.Gen.Kernel
import proofs.«413109_j27453430956391_3_alg».proof.Proof.Gen.Kernel.Frame
import proofs.«413109_j27453430956391_3_alg».proof.Proof.Gen.KernelIdeal
import proofs.«413109_j27453430956391_3_alg».proof.Proof.Gen.KernelIdeal.Frame
import proofs.«413109_j27453430956391_3_alg».proof.Proof.Gen.ReferenceIdeal
import proofs.«413109_j27453430956391_3_alg».proof.Proof.Gen.Pre_finite_inputs
import proofs.«413109_j27453430956391_3_alg».proof.Proof.KernelRun
import proofs.«413109_j27453430956391_3_alg».proof.Proof.InputsAgree
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.RunP.run (F := Ideal) m ρ)

/-- Both results are the loss of the statistics of the same pixels and words. -/
theorem algebraic : Cert.algebraic_KernelIdeal_ReferenceIdeal := by
  intro m ρ m' ρ' _ hagree
  refine ⟨fun c => Cert.KernelIdeal.Tail.ktail (Cert.KernelIdeal.Accum.halves m c), Cert.KernelIdeal.Accum.run m ρ, ?_⟩
  refine (θ_run Cert.ReferenceIdeal.defs _ _).mono (fun _ h c => ⟨(h c).1.trans ?_, (h c).2⟩)
    (Cert.ReferenceIdeal.RunP.run (F := Ideal) m' ρ')
  refine (Cert.ReferenceIdeal.RefStages.ref_loss m' c).trans ?_
  show _ = Cert.KernelIdeal.Tail.ktail (Cert.KernelIdeal.Accum.halves m c)
  rw [(hagree c).1, (hagree c).2, Cert.KernelIdeal.Accum.tail_halves, InputsAgree.pixels_eq, InputsAgree.words_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
